-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x8192 : Shape := ⟨2, ![1024, 8192]⟩
abbrev S8192 : Shape := ⟨1, ![8192]⟩
abbrev S131072 : Shape := ⟨1, ![131072]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S8192 : S_.BroadcastsInDim S8192 (![] : Fin 0 → Fin S8192.rank)
  reducesTo_S8192_S_d0 : S8192.ReducesTo [0] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg3 : IVec S131072 32) (main_arg4 : IVec S131072 32) (main_v13 : IVec S_ 1) (main_v16 : IVec S131072 1) : IVec S_ 1 :=
  let main_c_5 : IVec S_ 1 := constantI S_ 1 1#1
  let main_v17 : IVec S_ 1 := (fun x v => Host.reduce IntOp.andi x v reducesTo_S131072_S_d0 h_S_) main_v16 main_c_5
  let main_v18 : IVec S_ 1 := andi main_v13 main_v17
  let main_c_6 : IVec S_ 32 := constantI S_ 32 0#32
  let main_v19 : IVec S131072 32 := broadcastInDim S131072 ![] bcast_S_S131072 main_c_6
  let main_v20 : IVec S131072 1 := cmpi .sge main_arg3 main_v19
  let main_c_7 : IVec S_ 32 := constantI S_ 32 8192#32
  let main_v21 : IVec S131072 32 := broadcastInDim S131072 ![] bcast_S_S131072 main_c_7
  let main_v22 : IVec S131072 1 := cmpi .slt main_arg3 main_v21
  let main_v23 : IVec S131072 1 := andi main_v20 main_v22
  let main_c_8 : IVec S_ 1 := constantI S_ 1 1#1
  let main_v24 : IVec S_ 1 := (fun x v => Host.reduce IntOp.andi x v reducesTo_S131072_S_d0 h_S_) main_v23 main_c_8
  let main_v25 : IVec S_ 1 := andi main_v18 main_v24
  let main_c_9 : IVec S_ 32 := constantI S_ 32 0#32
  let main_v26 : IVec S131072 32 := broadcastInDim S131072 ![] bcast_S_S131072 main_c_9
  let main_v27 : IVec S131072 1 := cmpi .sge main_arg4 main_v26
  let main_c_10 : IVec S_ 32 := constantI S_ 32 8192#32
  let main_v28 : IVec S131072 32 := broadcastInDim S131072 ![] bcast_S_S131072 main_c_10
  let main_v29 : IVec S131072 1 := cmpi .slt main_arg4 main_v28
  let main_v30 : IVec S131072 1 := andi main_v27 main_v29
  let main_c_11 : IVec S_ 1 := constantI S_ 1 1#1
  let main_v31 : IVec S_ 1 := (fun x v => Host.reduce IntOp.andi x v reducesTo_S131072_S_d0 h_S_) main_v30 main_c_11
  let main_v32 : IVec S_ 1 := andi main_v25 main_v31
  main_v32

def fn {F : FTy → Type} [FloatOps F] (main_arg0 : FVec F S2048x1024 .f32) (main_arg1 : FVec F S1024x8192 .f32) (main_arg2 : FVec F S8192 .f32) (main_arg3 : IVec S131072 32) (main_arg4 : IVec S131072 32) (main_arg5 : FVec F S131072 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S131072 .f32 := Host.absf main_arg5
  let main_cst_4 : FVec F S_ .f32 := constant S_ .f32 0x7F800000#32
  let main_v15 : FVec F S131072 .f32 := broadcastInDim S131072 ![] bcast_S_S131072 main_cst_4
  let main_v16 : IVec S131072 1 := cmpf .olt main_v14 main_v15
  fn_part1 (F := F) main_arg3 main_arg4 main_v13 main_v16
-- ==== Kernel.lean ====
abbrev S2048x1024 : Shape := ⟨2, ![2048, 1024]⟩
abbrev S1024x8192 : Shape := ⟨2, ![1024, 8192]⟩
abbrev S8192 : Shape := ⟨1, ![8192]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S2048x8192 : Shape := ⟨2, ![2048, 8192]⟩
abbrev S512x1024 : Shape := ⟨2, ![512, 1024]⟩
abbrev S1024x1024 : Shape := ⟨2, ![1024, 1024]⟩
abbrev S1x8192 : Shape := ⟨2, ![1, 8192]⟩
abbrev S256x2048 : Shape := ⟨2, ![256, 2048]⟩
abbrev S1x1024 : Shape := ⟨2, ![1, 1024]⟩
abbrev S256x1024 : Shape := ⟨2, ![256, 1024]⟩

abbrev nBuf : Space → Nat
  | .hbm => 33
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S8192, .f32⟩
  | .hbm, ⟨3, _⟩ => ⟨S131072, .i32⟩
  | .hbm, ⟨4, _⟩ => ⟨S131072, .i32⟩
  | .hbm, ⟨5, _⟩ => ⟨S131072, .f32⟩
  | .hbm, ⟨6, _⟩ => ⟨S_, .f32⟩
  | .hbm, ⟨7, _⟩ => ⟨S8192x8192, .f32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x1, .i32⟩
  | .hbm, ⟨24, _⟩ => ⟨S131072x2, .i32⟩
  | .hbm, ⟨25, _⟩ => ⟨S8192x8192, .f32⟩
  | .hbm, ⟨26, _⟩ => ⟨S8192x8192, .bf16⟩
  | .hbm, ⟨27, _⟩ => ⟨S2048x1024, .bf16⟩
  | .hbm, ⟨28, _⟩ => ⟨S1024x8192, .bf16⟩
  | .hbm, ⟨29, _⟩ => ⟨S2048x8192, .f32⟩
  | .hbm, ⟨30, _⟩ => ⟨S2048x8192, .bf16⟩
  | .hbm, ⟨31, _⟩ => ⟨S1x8192, .f32⟩
  | .hbm, ⟨32, _⟩ => ⟨S2048x8192, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S256x2048, .bf16⟩
  | .local _ .vmem, ⟨7, _⟩ => ⟨S256x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192_S1x8192 : S8192.ShapeCasts S1x8192
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  scatter_S8192x8192_S131072x2_S131072_n_01_01_1_wf : ScatterDims.WF S8192x8192 S131072x2 S131072 [] [0, 1] [0, 1] 1
  dot_S512x1024_S1024x1024_S512x1024_1_0_0_1_n_n_wf : DotDims.WF S512x1024 S1024x1024 S512x1024 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .bf16 = 32 ∨ (Rect.block (s := S2048x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x8192.size a
  hwx0_1 : ∀ i : grid0.Coords, EltTy.bits .bf16 = 32 ∨ (Rect.block (s := S1024x8192) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x8192.size a
  hwx0_2 : ∀ i : grid0.Coords, EltTy.bits .f32 = 32 ∨ (Rect.block (s := S2048x8192) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x8192.size a
  hwx1_0 : ∀ i : grid1.Coords, EltTy.bits .bf16 = 32 ∨ (Rect.block (s := S2048x8192) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x8192.size a
  hwx1_1 : ∀ i : grid1.Coords, EltTy.bits .bf16 = 32 ∨ (Rect.block (s := S8192x8192) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S2048x8192.size a
  hwx1_3 : ∀ i : grid1.Coords, EltTy.bits .f32 = 32 ∨ (Rect.block (s := S2048x8192) S256x1024.size (cc1_transform_3 i) (hinb1_3 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v16) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2048x1024 : Shape := ⟨2, ![2048, 1024]⟩
abbrev S1024x8192 : Shape := ⟨2, ![1024, 8192]⟩
abbrev S8192 : Shape := ⟨1, ![8192]⟩
abbrev S131072 : Shape := ⟨1, ![131072]⟩
abbrev S2048x8192 : Shape := ⟨2, ![2048, 8192]⟩
abbrev S8192x2048 : Shape := ⟨2, ![8192, 2048]⟩
abbrev S131072x1 : Shape := ⟨2, ![131072, 1]⟩
abbrev S_ : Shape := ⟨0, ![]⟩
abbrev S131072x2048 : Shape := ⟨2, ![131072, 2048]⟩
abbrev S1x8192 : Shape := ⟨2, ![1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S8192, .f32⟩
  | .hbm, ⟨3, _⟩ => ⟨S131072, .i32⟩
  | .hbm, ⟨4, _⟩ => ⟨S131072, .i32⟩
  | .hbm, ⟨5, _⟩ => ⟨S131072, .f32⟩
  | .hbm, ⟨6, _⟩ => ⟨S2048x8192, .f32⟩
  | .hbm, ⟨7, _⟩ => ⟨S8192x2048, .f32⟩
  | .hbm, ⟨8, _⟩ => ⟨S131072x1, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S131072x2048, .f32⟩
  | .hbm, ⟨18, _⟩ => ⟨S131072x2048, .f32⟩
  | .hbm, ⟨19, _⟩ => ⟨S131072x2048, .f32⟩
  | .hbm, ⟨20, _⟩ => ⟨S_, .f32⟩
  | .hbm, ⟨21, _⟩ => ⟨S8192x2048, .f32⟩
  | .hbm, ⟨22, _⟩ => ⟨S131072x1, .i32⟩
  | .hbm, ⟨23, _⟩ => ⟨S8192x2048, .f32⟩
  | .hbm, ⟨24, _⟩ => ⟨S2048x8192, .f32⟩
  | .hbm, ⟨25, _⟩ => ⟨S1x8192, .f32⟩
  | .hbm, ⟨26, _⟩ => ⟨S2048x8192, .f32⟩
  | .hbm, ⟨27, _⟩ => ⟨S2048x8192, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  transposes_S2048x8192_S8192x2048_1_0 : S2048x8192.Transposes [1, 0] S8192x2048
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x2048_0_1 : S131072x1.BroadcastsInDim S131072x2048 (![0, 1] : Fin 2 → Fin S131072x2048.rank)
  bcast_S_S8192x2048 : S_.BroadcastsInDim S8192x2048 (![] : Fin 0 → Fin S8192x2048.rank)
  transposes_S8192x2048_S2048x8192_1_0 : S8192x2048.Transposes [1, 0] S2048x8192
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  dot_S2048x1024_S1024x8192_S2048x8192_1_0_0_1_n_n_wf : DotDims.WF S2048x1024 S1024x8192 S2048x8192 [1] [0] [0] [1] [] []
  gather_S8192x2048_S131072x1_S131072x2048_1_0_n_n_0_1_12048_wf : GatherDims.WF S8192x2048 S131072x1 S131072x2048 [1] [0] [] [0] [] 1 ![1, 2048]
  scatter_S8192x2048_S131072x1_S131072x2048_1_0_0_1_wf : ScatterDims.WF S8192x2048 S131072x1 S131072x2048 [1] [0] [0] 1

variable [Facts₀]

def dot_S2048x1024_S1024x8192_S2048x8192_1_0_0_1_n_n : DotDims S2048x1024 S1024x8192 S2048x8192 where
  lhsContracting := [1]
  rhsContracting := [0]
  lhsNonContracting := [0]
  rhsNonContracting := [1]
  lhsBatch := []
  rhsBatch := []
  wf := dot_S2048x1024_S1024x8192_S2048x8192_1_0_0_1_n_n_wf
def gather_S8192x2048_S131072x1_S131072x2048_1_0_n_n_0_1_12048 : GatherDims S8192x2048 S131072x1 S131072x2048 where
  offsetDims := [1]
  collapsedSliceDims := [0]
  operandBatchingDims := []
  startIndicesBatchingDims := []
  startIndexMap := [0]
  indexVectorDim := 1
  sliceSizes := ![1, 2048]
  wf := gather_S8192x2048_S131072x1_S131072x2048_1_0_n_n_0_1_12048_wf
def scatter_S8192x2048_S131072x1_S131072x2048_1_0_0_1 : ScatterDims S8192x2048 S131072x1 S131072x2048 where
  updateWindowDims := [1]
  insertedWindowDims := [0]
  scatterDimsToOperandDims := [0]
  indexVectorDim := 1
  wf := scatter_S8192x2048_S131072x1_S131072x2048_1_0_0_1_wf

class Facts : Prop extends Facts₀ where

variable [Facts]
-- ==== Proof.KiRegion0.lean ====
/-
  The first matrix product's grid body on its staging buffers, and the region's proof data.

  The grid is 4 × 8; at point (i, j) the body loads a 512 × 1024 block of the left operand and a 1024 × 1024 block of
  the right operand, multiplies them into a zero accumulator and stores the 512 × 1024 product into the output block,
  whole. Nothing is kept between points.
-/
import proofs.«403620_j5248450035900_1_alg».proof.Proof.Gen.KernelIdeal.Launch
import proofs.«403620_j5248450035900_1_alg».proof.Proof.Gen.KernelIdeal.Skeleton
import proofs.«403620_j5248450035900_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S512x1024 := Rect.unit (s := S512x1024) ![0, 0] S512x1024.size inb_S512x1024_S512x1024_0_0
abbrev r0_b : Rect S1024x1024 := Rect.unit (s := S1024x1024) ![0, 0] S1024x1024.size inb_S1024x1024_S1024x1024_0_0

/-! ## What the body leaves in the output block's buffer -/

/-- The output block's buffer after the body, from the two input blocks: its one store as a piece. -/
def out0_2 (x0 : Vec F S512x1024 .bf16) (x1 : Vec F S1024x1024 .bf16) : Vec F S512x1024 .f32 :=
  View.canon [⟨r0_a, k0_pay1 (View.ld x0 r0_a) (View.ld x1 r0_b)⟩]

/-- The store covers the buffer. -/
theorem cover0_2 (p0 : Vec F S512x1024 .f32) (y : S512x1024.Idx) :
    ∃ pc ∈ ([⟨r0_a, p0⟩] : List (View.Piece (Elt F) S512x1024 .f32)), y ∈ pc.1.set :=
  View.cover_of_tiled [⟨r0_a, p0⟩] S512x1024.size (by rfl) y

/-! ## The body's triple -/

set_option maxHeartbeats 1000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole)
    (x0 : Vec F S512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__mm1_kernel i arg2 harg2 arg3 harg3 arg4 harg4) K := by
  simp only [cc0__mm1_kernel_eq_skeleton]; unfold cc0__mm1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at a point each input's buffer at its block and the output's
    at `out0_2` of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem share0 (c : Dev nD) : ∀ w, (dat0 V c).share w = fullShare := (dat0 V c).share_full fun _ => rfl
theorem owed0 (c : Dev nD) (t) : (dat0 V c).owed t = 0 := rfl
theorem Phi0 (c : Dev nD) (t) : (dat0 V c).Φ t = Pipeline.ΦA spec0 c := rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KiRegion1.lean ====
/-
  The second matrix product's grid body on its staging buffers, case by case, and the region's proof data.

  The grid is 8 × 8 × 4; the last axis k walks the four column blocks of the contraction. The body keeps a running
  sum in a scratch buffer that lives through the whole region: at k = 0 it is zeroed first, at every k the block
  product is added to it, and at k = 3 the sum plus the bias row is stored into the output block, which is written
  back only there. So a point is in one of three cases — first (k = 0), middle (k = 1, 2), last (k = 3) — and what the
  scratch holds after a point is a function of what the point before left in it.
-/
import proofs.«403620_j5248450035900_1_alg».proof.Proof.Gen.KernelIdeal.Launch
import proofs.«403620_j5248450035900_1_alg».proof.Proof.Gen.KernelIdeal.Skeleton
import proofs.«403620_j5248450035900_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, over the grid -/

/-- "k = 0": the scratch is zeroed first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 3 the body stores nothing into the output block, and the block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging memrefs at a point, and the scratch -/

abbrev VO1_3 : View sig .tc .vmem S256x1024 .f32 := (Memref.whole cc1_stg3_0 : Memref sig .tc .vmem S256x1024 .f32).view
abbrev ms1_0 (t : Fin cfg1.N) : Memref sig .tc .vmem S256x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)
/-- The running sum's buffer. -/
abbrev scM1_0 : Memref sig .tc .vmem S256x1024 .f32 := Memref.whole cc1_scratch0
abbrev VS1_0 : View sig .tc .vmem S256x1024 .f32 := scM1_0.view

/-- What rides through the region beside the running sum: the first product's six staging buffers, each whole at some
    contents, the running sum's buffer in the state `P`, and the generator register at some state. -/
def rest1 (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P) ∗ (∃ r, prngReg c r))

/-- The class invariant is `rest1` with the running sum's buffer at anything. -/
theorem PhiA1_eq (c : Dev nD) :
    (Pipeline.ΦA spec1 c : sProp 𝕄) = rest1 c iprop(∃ d, owns (c : Thread nD τ) scM1_0 fullShare d) := by
  unfold Pipeline.ΦA rest1; rw [scopedRest1_eq]; simp only [scM1_0, owns_whole]; try rfl

/-! ## The body on any whole staging memrefs, case by case

Each case's triple comes with the pieces the body's stores leave in the buffers it writes (last store first); the
run itself finds them. -/

set_option maxHeartbeats 1000000 in
/-- FIRST (k = 0): the scratch, at anything, is zeroed and the block product added; the output block is not touched. -/
noncomputable def kernelRun1_A (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i)
    (x0 : Vec F S256x2048 .bf16) (x1 : Vec F S2048x1024 .bf16) (x2 : Vec F S1x1024 .f32) :
    Σ' (L3 : List (View.Piece (Elt F) S256x1024 .f32)), { LS0 : List (View.Piece (Elt F) S256x1024 .f32) //
      ∀ (xi3 : Vec F S256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm2_kernel i arg3 harg3 arg4 harg4 arg5 harg5 arg6 harg6 arg7 harg7) K } := by
  refine ⟨[], ?_, fun xi3 E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- MIDDLE (k = 1, 2): the block product is added to what the point before left; the output block is not touched. -/
noncomputable def kernelRun1_B (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i)
    (x0 : Vec F S256x2048 .bf16) (x1 : Vec F S2048x1024 .bf16) (x2 : Vec F S1x1024 .f32) (xs0 : Vec F S256x1024 .f32) :
    Σ' (L3 : List (View.Piece (Elt F) S256x1024 .f32)), { LS0 : List (View.Piece (Elt F) S256x1024 .f32) //
      ∀ (xi3 : Vec F S256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm2_kernel i arg3 harg3 arg4 harg4 arg5 harg5 arg6 harg6 arg7 harg7) K } := by
  refine ⟨[], ?_, fun xi3 E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- LAST (k = 3): the block product is added to what the point before left, and the sum plus the bias row is stored into
    the output block, which was at anything. -/
noncomputable def kernelRun1_C (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i)
    (x0 : Vec F S256x2048 .bf16) (x1 : Vec F S2048x1024 .bf16) (x2 : Vec F S1x1024 .f32) (xs0 : Vec F S256x1024 .f32) :
    Σ' (L3 : List (View.Piece (Elt F) S256x1024 .f32)), { LS0 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__mm2_kernel i arg3 harg3 arg4 harg4 arg5 harg5 arg6 harg6 arg7 harg7) K } := by
  refine ⟨?_, ?_, fun E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves, read back -/

/-- FIRST: the scratch's pieces cover it. -/
theorem scover1_A (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i)
    (x0 : Vec F S256x2048 .bf16) (x1 : Vec F S2048x1024 .bf16) (x2 : Vec F S1x1024 .f32) (y : S256x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S256x1024.size (by sl_kernel_rfl) y
/-- What FIRST leaves in the scratch. -/
def sout1_A (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i)
    (x0 : Vec F S256x2048 .bf16) (x1 : Vec F S2048x1024 .bf16) (x2 : Vec F S1x1024 .f32) : Vec F S256x1024 .f32 :=
  VS1_0.read (Elt F) (VS1_0.writes (Elt F) VS1_0.junk (kernelRun1_A c i arg3 harg3 arg4 harg4 arg5 harg5 arg6 harg6 arg7 harg7 hc0 hc1 x0 x1 x2).2.1)
/-- FIRST stores nothing into the output block: a placeholder nothing consults. -/
def out1_A (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i)
    (x0 : Vec F S256x2048 .bf16) (x1 : Vec F S2048x1024 .bf16) (x2 : Vec F S1x1024 .f32) : Vec F S256x1024 .f32 :=
  VO1_3.read (Elt F) (VO1_3.writes (Elt F) VO1_3.junk (kernelRun1_A c i arg3 harg3 arg4 harg4 arg5 harg5 arg6 harg6 arg7 harg7 hc0 hc1 x0 x1 x2).1)

theorem scover1_B (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i)
    (x0 : Vec F S256x2048 .bf16) (x1 : Vec F S2048x1024 .bf16) (x2 : Vec F S1x1024 .f32) (xs0 : Vec F S256x1024 .f32) (y : S256x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S256x1024.size (by sl_kernel_rfl) y
def sout1_B (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i)
    (x0 : Vec F S256x2048 .bf16) (x1 : Vec F S2048x1024 .bf16) (x2 : Vec F S1x1024 .f32) (xs0 : Vec F S256x1024 .f32) : Vec F S256x1024 .f32 :=
  VS1_0.read (Elt F) (VS1_0.writes (Elt F) VS1_0.junk (kernelRun1_B c i arg3 harg3 arg4 harg4 arg5 harg5 arg6 harg6 arg7 harg7 hc0 hc1 x0 x1 x2 xs0).2.1)
def out1_B (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i)
    (x0 : Vec F S256x2048 .bf16) (x1 : Vec F S2048x1024 .bf16) (x2 : Vec F S1x1024 .f32) (xs0 : Vec F S256x1024 .f32) : Vec F S256x1024 .f32 :=
  VO1_3.read (Elt F) (VO1_3.writes (Elt F) VO1_3.junk (kernelRun1_B c i arg3 harg3 arg4 harg4 arg5 harg5 arg6 harg6 arg7 harg7 hc0 hc1 x0 x1 x2 xs0).1)

theorem scover1_C (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i)
    (x0 : Vec F S256x2048 .bf16) (x1 : Vec F S2048x1024 .bf16) (x2 : Vec F S1x1024 .f32) (xs0 : Vec F S256x1024 .f32) (y : S256x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S256x1024.size (by sl_kernel_rfl) y
def sout1_C (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i)
    (x0 : Vec F S256x2048 .bf16) (x1 : Vec F S2048x1024 .bf16) (x2 : Vec F S1x1024 .f32) (xs0 : Vec F S256x1024 .f32) : Vec F S256x1024 .f32 :=
  VS1_0.read (Elt F) (VS1_0.writes (Elt F) VS1_0.junk (kernelRun1_C c i arg3 harg3 arg4 harg4 arg5 harg5 arg6 harg6 arg7 harg7 hc0 hc1 x0 x1 x2 xs0).2.1)
/-- LAST: the output block's pieces cover it. -/
theorem cover1_C (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i)
    (x0 : Vec F S256x2048 .bf16) (x1 : Vec F S2048x1024 .bf16) (x2 : Vec F S1x1024 .f32) (xs0 : Vec F S256x1024 .f32) (y : S256x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S256x1024.size (by sl_kernel_rfl) y
/-- What LAST leaves in the output block. -/
def out1_C (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i)
    (x0 : Vec F S256x2048 .bf16) (x1 : Vec F S2048x1024 .bf16) (x2 : Vec F S1x1024 .f32) (xs0 : Vec F S256x1024 .f32) : Vec F S256x1024 .f32 :=
  VO1_3.read (Elt F) (VO1_3.writes (Elt F) VO1_3.junk (kernelRun1_C c i arg3 harg3 arg4 harg4 arg5 harg5 arg6 harg6 arg7 harg7 hc0 hc1 x0 x1 x2 xs0).1)

section Region1
variable (V : (c : Dev nD) → (b : Ref sig .tc) → Buf (Elt F) ((c : Thread nD τ).loc b))

/-! ## What the output block's buffer and the scratch hold after each point -/

/-- The pair (output block's buffer, scratch) after the body at position `n`: the case `n mod 4` selects, run on the
    point's input blocks, the scratch taken over from position `n - 1` except at k = 0. -/
def outsAt1 (c : Dev nD) : (n : ℕ) → n < cfg1.N → Vec F S256x1024 .f32 × Vec F S256x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the same with the
    running sum's buffer at what the point before left in it. -/
def PhiS (c : Dev nD) : (n : ℕ) → n ≤ cfg1.N → sProp 𝕄
  | 0, _ => Pipeline.ΦA spec1 c
  | n + 1, hn => rest1 c (owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = rest1 c (owns (c : Thread nD τ) scM1_0 fullShare ((outsAt1 V c n hn).2)) := rfl
theorem PhiS_pos (c : Dev nD) (n : ℕ) (h : n ≤ cfg1.N) (hz : n ≠ 0) :
    PhiS V c n h = rest1 c (owns (c : Thread nD τ) scM1_0 fullShare ((outsAt1 V c (n - 1) (by omega)).2)) := by
  cases n with
  | zero => exact absurd rfl hz
  | succ n => rfl

/-! ## The pipeline's proof data -/

/-- The arrays as the region finds them; after the body at a point each input's buffer at its block and the output
    block's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem share1 (c : Dev nD) : ∀ w, (dat1 V c).share w = fullShare := (dat1 V c).share_full fun _ => rfl
theorem owed1 (c : Dev nD) (t) : (dat1 V c).owed t = 0 := rfl
theorem Phi1_zero (c : Dev nD) : (dat1 V c).Φ 0 = Pipeline.ΦA spec1 c := rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; `t mod 4` says which case the point is in; the
    invariant hands the body the running sum's buffer at what the point before left (at anything at the first point)
    and takes it back at this point's contents; the rest rides through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]; unfold rest1
      iintro ⟨⟨⟨Hb1, Hb2, Hb3, Hb4, Hb5, Hb6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hb1 Hb2 Hb3 Hb4 Hb5 Hb6 HS0 Hg]
      · isplitl [Hb1 Hb2 Hb3 Hb4 Hb5 Hb6 HS0]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold rest1
      iintro ⟨⟨⟨Hb1, Hb2, Hb3, Hb4, Hb5, Hb6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hb1 Hb2 Hb3 Hb4 Hb5 Hb6 HS0 Hg]
      · isplitl [Hb1 Hb2 Hb3 Hb4 Hb5 Hb6 HS0]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 = 3
    · rw [show (dat1 V c).leavesExact 3 t = owns (c : Thread nD τ) (ms1_3 t) fullShare ((dat1 V c).after 3 t) from by
      unfold Dat.leavesExact; rw [liveAt1_3 t ((hcond1_1 t).mpr h1)], after1_3]
      rw [outsAt1_C V c t h0 h1]
      unfold out1_C sout1_C; (try dsimp only)
      rw [PhiS_castSucc V c t, PhiS_pos V c _ _ hz]; unfold rest1
      iintro ⟨⟨⟨Hb1, Hb2, Hb3, Hb4, Hb5, Hb6, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hb1 Hb2 Hb3 Hb4 Hb5 Hb6 HS0 Hg]
      · isplitl [Hb1 Hb2 Hb3 Hb4 Hb5 Hb6 HS0]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]; unfold rest1
      iintro ⟨⟨⟨Hb1, Hb2, Hb3, Hb4, Hb5, Hb6, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hb1 Hb2 Hb3 Hb4 Hb5 Hb6 HS0 Hg]
      · isplitl [Hb1 Hb2 Hb3 Hb4 Hb5 Hb6 HS0]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_in (c : Dev nD) : Pipeline.ΦA spec1 c ⊢ (dat1 V c).Φ 0 := by
  rw [Phi1_zero V c]

/-- After any point the invariant gives the class's back: the running sum's contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold rest1
  iintro ⟨⟨Hb1, Hb2, Hb3, Hb4, Hb5, Hb6, HS0⟩, Hg⟩
  isplitl [Hb1 Hb2 Hb3 Hb4 Hb5 Hb6 HS0]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexists _; iexact HS0
  iexact Hg

theorem Phi1_out (c : Dev nD) : (dat1 V c).Φ (Fin.last cfg1.N) ⊢ Pipeline.ΦA spec1 c :=
  Phi_out V c _ (by rw [Fin.val_last]; have : cfg1.N = 256 := N_1; omega)

end Region1

/-! ## The contents after a point, through the body's arithmetic -/

theorem hz2 : (![0, 0] : Fin 2 → Nat) = fun _ => 0 := by funext a; fin_cases a <;> rfl

/-- MIDDLE and LAST leave in the scratch the block product added to what they found. -/
theorem sout1_B_eq (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i)
    (x0 : Vec F S256x2048 .bf16) (x1 : Vec F S2048x1024 .bf16) (x2 : Vec F S1x1024 .f32) (xs0 : Vec F S256x1024 .f32) :
    sout1_B c i arg3 harg3 arg4 harg4 arg5 harg5 arg6 harg6 arg7 harg7 hc0 hc1 x0 x1 x2 xs0 = k1_pay2 xs0 x0 x1 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  sl_unfold_words
  rw [View.canon_unit_zero (S := S256x1024) hz2]
  simp only [View.readAt_eq_ld, harg7.read_unread, harg3.read_unread, harg4.read_unread, harg5.read_unread, View.ld_unit_zero (S := S256x1024) hz2, View.ld_unit_zero (S := S256x2048) hz2, View.ld_unit_zero (S := S2048x1024) hz2, View.ld_unit_zero (S := S1x1024) hz2]

theorem sout1_C_eq (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i)
    (x0 : Vec F S256x2048 .bf16) (x1 : Vec F S2048x1024 .bf16) (x2 : Vec F S1x1024 .f32) (xs0 : Vec F S256x1024 .f32) :
    sout1_C c i arg3 harg3 arg4 harg4 arg5 harg5 arg6 harg6 arg7 harg7 hc0 hc1 x0 x1 x2 xs0 = k1_pay2 xs0 x0 x1 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero (S := S256x1024) hz2]
  simp only [View.readAt_eq_ld, harg7.read_unread, harg3.read_unread, harg4.read_unread, harg5.read_unread, View.ld_unit_zero (S := S256x1024) hz2, View.ld_unit_zero (S := S256x2048) hz2, View.ld_unit_zero (S := S2048x1024) hz2, View.ld_unit_zero (S := S1x1024) hz2]

/-- FIRST leaves the block product added to zeros. -/
theorem sout1_A_eq (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i)
    (x0 : Vec F S256x2048 .bf16) (x1 : Vec F S2048x1024 .bf16) (x2 : Vec F S1x1024 .f32) :
    sout1_A c i arg3 harg3 arg4 harg4 arg5 harg5 arg6 harg6 arg7 harg7 hc0 hc1 x0 x1 x2 = k1_pay2 (k1_pay1 (F := F)) x0 x1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S256x1024) hz2, View.readCov_unit_zero (S := S256x1024) _ hz2]
  simp only [View.readAt_eq_ld, harg7.read_unread, harg3.read_unread, harg4.read_unread, harg5.read_unread, View.ld_unit_zero (S := S256x1024) hz2, View.ld_unit_zero (S := S256x2048) hz2, View.ld_unit_zero (S := S2048x1024) hz2, View.ld_unit_zero (S := S1x1024) hz2]

/-- LAST stores into the output block the new running sum plus the bias row. -/
theorem out1_C_eq (c : Dev nD) (i : grid1.Coords) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i)
    (x0 : Vec F S256x2048 .bf16) (x1 : Vec F S2048x1024 .bf16) (x2 : Vec F S1x1024 .f32) (xs0 : Vec F S256x1024 .f32) :
    out1_C c i arg3 harg3 arg4 harg4 arg5 harg5 arg6 harg6 arg7 harg7 hc0 hc1 x0 x1 x2 xs0 = k1_pay3 (k1_pay2 xs0 x0 x1) x2 := by
  unfold out1_C
  rw [View.read_writes_eq_canon _ _ _ (cover1_C c i arg3 harg3 arg4 harg4 arg5 harg5 arg6 harg6 arg7 harg7 hc0 hc1 x0 x1 x2 xs0)]
  unfold kernelRun1_C
  dsimp only
  sl_unfold_words
  rw [View.canon_unit_zero (S := S256x1024) hz2, View.readCov_unit_zero (S := S256x1024) _ hz2]
  simp only [View.readAt_eq_ld, harg7.read_unread, harg3.read_unread, harg4.read_unread, harg5.read_unread, View.ld_unit_zero (S := S256x1024) hz2, View.ld_unit_zero (S := S256x2048) hz2, View.ld_unit_zero (S := S2048x1024) hz2, View.ld_unit_zero (S := S1x1024) hz2]

section Region1
variable (V : (c : Dev nD) → (b : Ref sig .tc) → Buf (Elt F) ((c : Thread nD τ).loc b))

/-- At k = 0 the running sum is the block product added to zeros. -/
theorem acc_first (c : Dev nD) (t : Fin cfg1.N) (h : t.val % 4 = 0) :
    (outsAt1 V c t.val t.isLt).2 = k1_pay2 (k1_pay1 (F := F)) (iblk1 V c 0 t) (iblk1 V c 1 t) := by
  have h1 : ¬t.val % 4 = 3 := by omega
  rw [outsAt1_A V c t h h1]; dsimp only
  exact sout1_A_eq (F := F) c (grid1.coords t) (ms1_0 t) (hs1_0 t) (ms1_1 t) (hs1_1 t) (ms1_2 t) (hs1_2 t) (ms1_3 t) (hs1_3 t) scM1_0 (Memref.isWhole_whole _) ((hcond1_0 t).mpr h) (fun h' => h1 ((hcond1_1 t).mp h')) (iblk1 V c 0 t) (iblk1 V c 1 t) (iblk1 V c 2 t)

/-- At k > 0 it is the block product added to what the point before left. -/
theorem acc_next (c : Dev nD) (t : Fin cfg1.N) (h : ¬t.val % 4 = 0) :
    (outsAt1 V c t.val t.isLt).2
      = k1_pay2 (outsAt1 V c (t.val - 1) (Nat.lt_of_le_of_lt (Nat.sub_le _ _) t.isLt)).2 (iblk1 V c 0 t) (iblk1 V c 1 t) := by
  by_cases h1 : t.val % 4 = 3
  · rw [outsAt1_C V c t h h1]; dsimp only
    exact sout1_C_eq (F := F) c (grid1.coords t) (ms1_0 t) (hs1_0 t) (ms1_1 t) (hs1_1 t) (ms1_2 t) (hs1_2 t) (ms1_3 t) (hs1_3 t) scM1_0 (Memref.isWhole_whole _) (fun h' => h ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h h1]; dsimp only
    exact sout1_B_eq (F := F) c (grid1.coords t) (ms1_0 t) (hs1_0 t) (ms1_1 t) (hs1_1 t) (ms1_2 t) (hs1_2 t) (ms1_3 t) (hs1_3 t) scM1_0 (Memref.isWhole_whole _) (fun h' => h ((hcond1_0 t).mp h')) (fun h' => h1 ((hcond1_1 t).mp h')) (iblk1 V c 0 t) (iblk1 V c 1 t) (iblk1 V c 2 t) (outsAt1 V c (t.val - 1) (Nat.lt_of_le_of_lt (Nat.sub_le _ _) t.isLt)).2

/-- At k = 3 the output block is the running sum, this point's product included, plus the bias row. -/
theorem out_last (c : Dev nD) (t : Fin cfg1.N) (h : t.val % 4 = 3) :
    (outsAt1 V c t.val t.isLt).1 = k1_pay3 (outsAt1 V c t.val t.isLt).2 (iblk1 V c 2 t) := by
  have h0 : ¬t.val % 4 = 0 := by omega
  rw [outsAt1_C V c t h0 h]; dsimp only
  rw [sout1_C_eq (F := F) c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2]
  exact out1_C_eq (F := F) c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2

end Region1

end Cert.KernelIdeal.Hand

end
-- ==== Proof.KiRun.lean ====
/-
  The whole program's run: host operations, the first product's region, two more host operations, the second product's
  region. The buffers' contents are followed from the launch through the four stretches; every weakly fair execution
  terminates, and at the end every unscoped buffer holds what the last stretch leaves — the six arguments what they
  held at launch, the result buffer what the second region's write-backs leave.
-/
import proofs.«403620_j5248450035900_1_alg».proof.Proof.KiRegion0
import proofs.«403620_j5248450035900_1_alg».proof.Proof.KiRegion1
import proofs.«403620_j5248450035900_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m ((c : Dev nD), b)
/-- After the first stretch of host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second stretch of host operations (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

/-! ## No stretch writes an argument -/

/-- A buffer that neither host stretch writes and that is no window's array of either product holds at the last
    boundary what it held at launch: each of the four stretches leaves it alone. -/
theorem W4_of_untouched (c : Dev nD) (r : Ref sig .tc)
    (h₀ : r ∉ hostOps0_W) (ha₀ : ∀ w, Pipeline.arrRef spec0 w ≠ r)
    (h₁ : r ∉ hostOps1_W) (ha₁ : ∀ w, Pipeline.arrRef spec1 w ≠ r) :
    W4 m c (Proc.devRef .tc r) = m ((c : Thread nD τ).loc r) := by
  rw [W4_of_ne m c r ha₁]
  refine (StableHlo.after_of_writes_sub hostOps1 (W2 m c) hostOps1_writes h₁).trans ?_
  rw [W2_of_ne m c r ha₀]
  exact StableHlo.after_of_writes_sub hostOps0 (W0 m c) hostOps0_writes h₀

theorem W4_main_arg0 (c : Dev nD) : W4 m c (Proc.devRef .tc main_arg0) = m ((c : Thread nD τ).loc main_arg0) :=
  W4_of_untouched m c main_arg0 (by decide) (by decide) (by decide) (by decide)
theorem W4_main_arg1 (c : Dev nD) : W4 m c (Proc.devRef .tc main_arg1) = m ((c : Thread nD τ).loc main_arg1) :=
  W4_of_untouched m c main_arg1 (by decide) (by decide) (by decide) (by decide)
theorem W4_main_arg2 (c : Dev nD) : W4 m c (Proc.devRef .tc main_arg2) = m ((c : Thread nD τ).loc main_arg2) :=
  W4_of_untouched m c main_arg2 (by decide) (by decide) (by decide) (by decide)
theorem W4_main_arg3 (c : Dev nD) : W4 m c (Proc.devRef .tc main_arg3) = m ((c : Thread nD τ).loc main_arg3) :=
  W4_of_untouched m c main_arg3 (by decide) (by decide) (by decide) (by decide)
theorem W4_main_arg4 (c : Dev nD) : W4 m c (Proc.devRef .tc main_arg4) = m ((c : Thread nD τ).loc main_arg4) :=
  W4_of_untouched m c main_arg4 (by decide) (by decide) (by decide) (by decide)
theorem W4_main_arg5 (c : Dev nD) : W4 m c (Proc.devRef .tc main_arg5) = m ((c : Thread nD τ).loc main_arg5) :=
  W4_of_untouched m c main_arg5 (by decide) (by decide) (by decide) (by decide)

/-! ## What a core holds between two stretches -/

/-- Both products' proof data, each at the contents its region is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

abbrev 𝒱₀ : Variants := Variants.none
/-- No core owes another anything, so no pair of a cell and an index has a level. -/
abbrev L : GSem nD τ sig → Finset Unit := fun _ => ∅
abbrev lv : GSem nD τ sig → Unit → ℕ := fun _ _ => 0

/-- Beside its buffers a core holds, at every boundary, that it owes nothing and its generator register at some state. -/
abbrev beside (c : Dev nD) : sProp 𝕄 :=
  iprop((∃ W, owes (c : Thread nD τ) (0 : CellTallies nD τ sig Unit) W) ∗ ∃ r, prngReg c r)

/-- Core `c` at a boundary where its unscoped buffers hold `V c`. -/
abbrev St (V : Dev nD → Valuation τ sig (Elt F)) (c : Dev nD) : sProp 𝕄 :=
  iprop(StableHlo.held (c : Thread nD τ) (Pipeline.ucRefs τ sig) (V c) ∗ beside c)

/-- The last boundary without the owing: the chain of stretches ends at it beside the core owing nothing. -/
abbrev Tₙ (c : Dev nD) : sProp 𝕄 :=
  iprop(StableHlo.held (c : Thread nD τ) (Pipeline.ucRefs τ sig) (W4 m c) ∗ ∃ r, prngReg c r)

/-- An unscoped reference of the TensorCore is among the buffers a boundary holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The launch memory's unscoped buffers are the first boundary's. -/
theorem launch_held (c : Dev nD) :
    (unscopedBufs (Ix := Unit) (Name := ℕ) (U := UR sig nD τ) (Lvl := ℕ) c (fun b => m ((c : Thread nD τ).loc b)) : sProp 𝕄)
      = StableHlo.held (c : Thread nD τ) (Pipeline.ucRefs τ sig) (W0 m c) :=
  Pipeline.unscopedBufs_held c (W0 m c)

/-! ## The pieces of a region's protocol that both products share -/

section Protocol

variable {cfg : Cfg sig Λ₀} {c : Dev nD} (dat : Dat τ (Elt F) Unit ℕ (UR sig nD τ) ℕ cfg c)

/-- A core owing nothing is held the way the grid loop holds it, when the proof data owe nothing before position `t`
    and bound no recorded pair: any recorded set lies within the loop's bound. -/
theorem owes_into_loop (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, H⟩
  iexists W
  isplitr
  · ipureintro; exact fun x _ => Or.inl (Set.mem_univ x)
  iexact H

/-- And back: what the loop holds of a core that owes nothing is that it owes nothing. -/
theorem owes_from_loop (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, H⟩
  iexists W
  iexact H

end Protocol

/-- The class invariant of a product's region from its parts: the generator register at some state and the scoped
    buffers no window stages; whatever else is offered (the tables: there are none) is let go. -/
theorem PhiA_of_parts {gr W : ℕ} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hg, -, Hs⟩
  isplitl [Hs]
  · iexact Hs
  iexact Hg

/-- And into them, for a kernel with no semaphore of its own. -/
theorem PhiA_parts {gr W : ℕ} (win : Fin W → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]
  unfold Pipeline.ΦA
  iintro ⟨Hs, Hg⟩
  isplitl [Hg]
  · iexact Hg
  isplitr
  · iempintro
  iexact Hs

/-! ## Entering and leaving a product's region -/

set_option backward.isDefEq.respectTransparency.types false in
/-- ENTRY of product `p`'s region from the boundary at `V`: its windows' arrays leave the unscoped buffers at the
    contents the proof data start from; no table is held; the core's owing nothing passes to the loop; the generator
    register goes to the invariant; the other unscoped buffers pass the region by. -/
theorem enter (p : Fin 2) (kit : Pipeline.LaunchFacts (nD := nD) (τ := τ) cfgs p) (c : Dev nD)
    (V : Dev nD → Valuation τ sig (Elt F))
    (hshare : ∀ w, (pdats m p c).share w = fullShare)
    (hA : ∀ w, (pdats m p c).A w = V c (Proc.devRef .tc (Pipeline.arrRef (Pipeline.pin (pcfgs (F := F)) adm p).spec w)))
    (ho : (pdats m p c).owed 0 = 0) (hr : (pdats m p c).recorded 0 = Set.univ) :
    (St V c : sProp 𝕄)
      ⊢ |={Set.univ}=> iprop((pdats m p c).arrays ((pdats m p c).arrAt · 0)
          ∗ Pipeline.prefHeld (pcfgs (F := F) p).pre c (fun _ => fullShare) (adm p).1
          ∗ (pdats m p c).owesAt () 0 ∗ (∃ r, prngReg c r)
          ∗ Pipeline.unscopedRest (Ix := Unit) (Name := ℕ) (U := UR sig nD τ) (Lvl := ℕ)
              (Pipeline.pin (pcfgs (F := F)) adm p).spec c (fun b => V c b)) := by
  have hsplit := Pipeline.arrays_of_unscopedBufs (p := p) (pcfgs (F := F)) adm (pdats m) kit.win kit.arr_whole c
    hshare (fun b => V c b) hA
  rw [Pipeline.unscopedBufs_held] at hsplit
  iintro ⟨Hb, Ho, Hg⟩
  ihave H := hsplit $$ Hb
  icases H with ⟨Ha, Hrest⟩
  imodintro
  isplitl [Ha]
  · iexact Ha
  isplitr
  · unfold Pipeline.prefHeld
    rw [show (Finset.univ : Finset (Fin 0)) = ∅ from rfl, BI.bigSep_empty]
    iempintro
  isplitl [Ho]
  · iapply (owes_into_loop (pdats m p c) 0 ho hr)
    iexact Ho
  isplitl [Hg]
  · iexact Hg
  iexact Hrest

set_option backward.isDefEq.respectTransparency.types false in
/-- EXIT of product `p`'s region to the boundary at `V'`, which has the windows' arrays at what the write-backs leave
    and agrees with `V` off them: the arrays rejoin the buffers that passed the region by; the loop's account of a
    core owing nothing is that it owes nothing; the invariant gives the generator register back. -/
theorem leave (p : Fin 2) (kit : Pipeline.LaunchFacts (nD := nD) (τ := τ) cfgs p) (c : Dev nD)
    (V V' : Dev nD → Valuation τ sig (Elt F))
    (hshare : ∀ w, (pdats m p c).share w = fullShare)
    (hF : ∀ w, (pdats m p c).arrAt w (Pipeline.pin (pcfgs (F := F)) adm p).N
      = V' c (Proc.devRef .tc (Pipeline.arrRef (Pipeline.pin (pcfgs (F := F)) adm p).spec w)))
    (hoff : ∀ b : Ref sig .tc, (∀ w, Pipeline.arrRef (Pipeline.pin (pcfgs (F := F)) adm p).spec w ≠ b)
      → V' c (Proc.devRef .tc b) = V c (Proc.devRef .tc b))
    (ho : (pdats m p c).owed (Fin.last (Pipeline.pin (pcfgs (F := F)) adm p).N) = 0) :
    iprop((pdats m p c).arrays ((pdats m p c).arrAt · (Pipeline.pin (pcfgs (F := F)) adm p).N)
        ∗ (pdats m p c).owesAt () (Fin.last (Pipeline.pin (pcfgs (F := F)) adm p).N) ∗ (∃ r, prngReg c r)
        ∗ Pipeline.unscopedRest (Ix := Unit) (Name := ℕ) (U := UR sig nD τ) (Lvl := ℕ)
            (Pipeline.pin (pcfgs (F := F)) adm p).spec c (fun b => V c b))
      ⊢ |={Set.univ}=> (St V' c : sProp 𝕄) := by
  have hjoin := Pipeline.unscopedBufs_of_arrays (p := p) (pcfgs (F := F)) adm (Ix := Unit) (Name := ℕ) (U := UR sig nD τ) (Lvl := ℕ)
    kit.win kit.arr_whole c (pdats m) hshare (fun b => V c b) (fun b => V' c b)
    ((pdats m p c).arrAt · (Pipeline.pin (pcfgs (F := F)) adm p).N) hF
    (fun b hb => hoff b fun w e => hb (Finset.mem_image.mpr ⟨w, Finset.mem_univ _, e⟩))
  rw [Pipeline.unscopedBufs_held] at hjoin
  iintro ⟨Ha, Ho, Hg, Hrest⟩
  imodintro
  isplitl [Ha Hrest]
  · iapply hjoin
    isplitl [Ha] <;> iassumption
  isplitl [Ho]
  · iapply (owes_from_loop (pdats m p c) _ ho)
    iexact Ho
  iexact Hg

/-! ## The four stretches as segments -/

/-- A line of host operations from the boundary at `V` to the one at its result, the rest of the core's state riding along. -/
abbrev hseg (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) V beside

set_option backward.isDefEq.respectTransparency.types false in
/-- The first product's region, from the boundary after the first host stretch to the one where its output array holds
    the 4 × 8 blocks' products. Nothing is carried between grid points: the invariant is the class's throughout. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed0 (V1 m) c t
  pre := St (W1 m)
  post := St (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    iintro ⟨H, -, -⟩
    iapply (enter m 0 launch0 c (W1 m) (share0 (V1 m) c) (A_eq0 (V1 m) c) (owed0 (V1 m) c 0) rfl)
    iexact H
  hin c := (PhiA_of_parts spec0 c _).trans (Entails.of_eq (Phi0 (V1 m) c 0).symm)
  hout c := (Entails.of_eq (Phi0 (V1 m) c (Fin.last _))).trans (PhiA_parts spec0 c)
  hexit c := leave m 0 launch0 c (W1 m) (W2 m) (share0 (V1 m) c) (fun w => (W2_arr m c w).symm)
    (fun b hb => W2_of_ne m c b hb) (owed0 (V1 m) c _)

set_option backward.isDefEq.respectTransparency.types false in
/-- The second product's region, from the boundary after the second host stretch to the last. Its invariant carries the
    running sum between grid points; before the first point and after the last it is the class's. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed1 (V3 m) c t
  pre := St (W3 m)
  post := St (W4 m)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    iintro ⟨H, -, -⟩
    iapply (enter m 1 launch1 c (W3 m) (share1 (V3 m) c) (A_eq1 (V3 m) c) (owed1 (V3 m) c 0) rfl)
    iexact H
  hin c := (PhiA_of_parts spec1 c _).trans (Phi1_in (V3 m) c)
  hout c := (Phi1_out (V3 m) c).trans (PhiA_parts spec1 c)
  hexit c := leave m 1 launch1 c (W3 m) (W4 m) (share1 (V3 m) c) (fun w => (W4_arr m c w).symm)
    (fun b hb => W4_of_ne m c b hb) (owed1 (V3 m) c _)

/-- The program's four stretches in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

/-- The program is the run of its four stretches: its chain of items is theirs, item by item. -/
theorem main_run (c : Dev nD) : main (F := F) c = Pipeline.Seg.run (segs m) := by
  rw [main_chain c, Pipeline.Seg.run_eq_chain]
  rfl

/-- The launch's element of the rounds algebra funds the staging cells of both products; no core gets anything else. -/
theorem fund :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const, ownU_emb₁]
  iintro Hu
  imodintro
  isplitl [Hu]
  · iexact Hu
  iempintro

/-! ## The run -/

/-- The last boundary is the chain's end beside the core owing nothing. -/
theorem last_boundary (c : Dev nD) :
    (St (W4 m) c : sProp 𝕄) ⊢ iprop(Tₙ m c ∗ ∃ W, owes (c : Thread nD τ) (0 : CellTallies nD τ sig Unit) W) := by
  iintro ⟨Hb, Ho, Hg⟩
  isplitr [Ho]
  · isplitl [Hb]
    · iexact Hb
    iexact Hg
  iexact Ho

/-- Held beside a final state's interpretation, the last boundary says what that state's memory holds at every
    unscoped buffer. -/
theorem read_last (c : Dev nD) (s' : Phys nD τ sig (Elt F)) :
    iprop(Tₙ m c ∗ SI s') ⊢ (|={Set.univ}=> iprop(⌜∀ b ∈ Pipeline.ucRefs τ sig, s'.mem.mem (((c : Thread nD τ)).1, b) = W4 m c b⌝ ∗ SI s') : sProp 𝕄) := by
  iintro ⟨⟨Hb, -⟩, HSI⟩
  unfold StableHlo.held
  imodintro
  iapply (pointsTo_read_all (Pipeline.ucRefs τ sig) (fun b => (((c : Thread nD τ)).1, b)) (W4 m c) s')
  isplitl [Hb] <;> iassumption

/-- The launch deals each core its unscoped buffers at the launch contents, that it owes nothing, and its generator
    register: the first boundary. -/
theorem first_boundary (ρ : Dev nD → PrngReg) (c : Dev nD) :
    iprop((unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ iprop(emp)) ∗ levAts L lv)
      ⊢ (|={Set.univ}=> St (W0 m) c : sProp 𝕄) := by
  rw [launch_held m c]
  iintro ⟨⟨Hb, -, Ho, -, Hg, -⟩, -⟩
  imodintro
  isplitl [Hb]
  · iexact Hb
  isplitl [Ho]
  · iexists ∅
    iexact Ho
  iexists _
  iexact Hg

set_option backward.isDefEq.respectTransparency.types false in
/-- Every weakly fair execution of the program from memory `m` with zero counters terminates, and every final state
    holds every unscoped buffer at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := fund)
    (T₀ := St (W0 m)) (Tₙ := Tₙ m)
    (hch := ⟨fun _ => .rfl, fun _ => .rfl, fun _ => .rfl, fun _ => .rfl, fun c => last_boundary m c⟩)
    (hinit := Pipeline.initEach L lv fun c => first_boundary m ρ c)
    (QY := fun c s => ∀ b ∈ Pipeline.ucRefs τ sig, s.mem (((c : Thread nD τ)).1, b) = W4 m c b)
    (hfin := fun c s' => read_last m c s')
    (hQ := fun s h => h)

/-- The six arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (Q := fun r => ∀ c : Dev nD, ∀ b ∈ Pipeline.ucRefs τ sig, r.2.mem (((c : Thread nD τ)).1, b) = W4 m c b)
    (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The result buffer ends at what the second region's write-backs leave, the arguments as launched. -/
theorem result (ρ : Dev nD → PrngReg) :
    θ_run defs (onTc (τ := τ) (main (F := F))) ⟨m, fun _ => 0, ρ⟩ (fun r => ∀ c : Dev nD,
      r.2.mem ((c.tc : Thread nD τ).loc main_v21) = W4 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (Q := fun r => ∀ c : Dev nD, ∀ b ∈ Pipeline.ucRefs τ sig, r.2.mem (((c : Thread nD τ)).1, b) = W4 m c b)
    (fun r h c =>
    ⟨h c _ (mem_uc main_v21 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.KernelIdeal.Hand

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.KiValue0.lean ====
/-
  The first product's result array, entry by entry, at the ideal values: entry (n, j) of the array the region leaves is
  ∑ k, left (n, k) · right (k, j) — each grid point writes back the product of a 512-row block of the left operand with
  a 1024-column block of the right one, whole, and the 4 × 8 blocks tile the 2048 × 8192 result.
-/
import proofs.«403620_j5248450035900_1_alg».proof.Proof.KiRegion0
import proofs.«403620_j5248450035900_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## One block product, entry by entry -/

/-- The body reads and writes its buffers from the corner: both offsets are zero. -/
theorem cornerOffsets : (![0, 0] : Fin 2 → Nat) = fun _ => 0 :=
  funext fun a => match a with | ⟨0, _⟩ => rfl | ⟨1, _⟩ => rfl

/-- Entry (p, q) of what the body computes from a 512 × 1024 block x0 and a 1024 × 1024 block x1: the matrix unit
    starts from a zero accumulator, so the entry is row p of x0 against column q of x1. -/
theorem blockProduct_apply (x0 : Vec Ideal S512x1024 .bf16) (x1 : Vec Ideal S1024x1024 .bf16) (p : Fin 512) (q : Fin 1024) :
    (k0_pay1 (F := Ideal) x0 x1 : S512x1024.Idx → EReal) (ix2 p q)
      = ∑ k : Fin 1024, (x0 : S512x1024.Idx → EReal) (ix2 p k) * (x1 : S1024x1024.Idx → EReal) (ix2 k q) := by
  unfold k0_pay1
  simp only [shapeCast_self]
  exact Cert.LibDot.matmul_plain_apply (φ₁ := .bf16) (φ₂ := .bf16) dot_S512x1024_S1024x1024_S512x1024_1_0_0_1_n_n
    rfl rfl rfl rfl rfl rfl none x0 x1 p q

/-- The body's one store fills the whole output buffer, and its two loads read whole buffers: the buffer ends holding
    the block product of what the two input buffers held. -/
theorem blockStore_eq (x0 : Vec Ideal S512x1024 .bf16) (x1 : Vec Ideal S1024x1024 .bf16) :
    out0_2 (F := Ideal) x0 x1 = k0_pay1 x0 x1 := by
  unfold out0_2
  rw [View.canon_unit_zero cornerOffsets]
  simp only [View.ld_unit_zero (S := S512x1024) cornerOffsets, View.ld_unit_zero (S := S1024x1024) cornerOffsets]

/-! ## The whole product -/

/-- Entry (n, j) of the product of a 2048 × 1024 array with a 1024 × 8192 array: row n against column j. -/
def rowByColumn (A : S2048x1024.Idx → EReal) (B : S1024x8192.Idx → EReal) : S2048x8192.Idx → EReal :=
  fun i => ∑ k : Fin 1024, A (ix2 (n0 := 2048) (n1 := 1024) (i 0) k) * B (ix2 (n0 := 1024) (n1 := 8192) k (i 1))

/-- A block product is a block of the whole product as soon as the left block's row is the whole left array's row and the
    right block's column is the whole right array's column: entry y of the block product is entry i of the whole product
    when row (y 0) of x0 is row (i 0) of A and column (y 1) of x1 is column (i 1) of B. -/
theorem blockProduct_read (A : S2048x1024.Idx → EReal) (B : S1024x8192.Idx → EReal)
    (x0 : Vec Ideal S512x1024 .bf16) (x1 : Vec Ideal S1024x1024 .bf16) (y : S512x1024.Idx) (i : S2048x8192.Idx)
    (hrow : ∀ k : Fin 1024, (x0 : S512x1024.Idx → EReal) (ix2 (n0 := 512) (n1 := 1024) (y 0) k) = A (ix2 (n0 := 2048) (n1 := 1024) (i 0) k))
    (hcol : ∀ k : Fin 1024, (x1 : S1024x1024.Idx → EReal) (ix2 (n0 := 1024) (n1 := 1024) k (y 1)) = B (ix2 (n0 := 1024) (n1 := 8192) k (i 1))) :
    (k0_pay1 (F := Ideal) x0 x1 : S512x1024.Idx → EReal) y = rowByColumn A B i := by
  refine (congrArg (k0_pay1 (F := Ideal) x0 x1) (eq_ix2 y)).trans ((blockProduct_apply x0 x1 (y 0) (y 1)).trans ?_)
  exact Finset.sum_congr rfl fun k _ => congrArg₂ (· * ·) (hrow k) (hcol k)

/-! ## Where the blocks sit in their arrays -/

/-- The three index maps over the 4 × 8 grid, point by point: at point t, in row-major order block row t / 8 and block
    column t % 8, the left operand's block is block row t / 8 (its one block column), the right operand's block is block
    column t % 8 (its one block row), and the result's block is (t / 8, t % 8). -/
theorem blockIndex_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) = t.val / 8 ∧ win0_2.index t (1 : Fin 2) = t.val % 8 :=
  (by decide +kernel : ∀ t : Fin grid0.N, _)

variable (V : (c : Dev nD) → (b : Ref sig .tc) → Buf (Elt Ideal) ((c : Thread nD τ).loc b))

/-- The left operand's block at point t holds, at x, the left array's entry i whenever i is x moved by the block's place:
    on each axis the block index times the block's extent plus x's coordinate. -/
theorem leftBlock_apply (c : Dev nD) (t : Fin cfg0.N) (x : S512x1024.Idx) (i : S2048x1024.Idx)
    (h0 : (i 0).val = win0_0.index t (0 : Fin 2) * 512 + (x 0).val)
    (h1 : (i 1).val = win0_0.index t (1 : Fin 2) * 1024 + (x 1).val) :
    (iblk0 V c 0 t : Vec Ideal S512x1024 .bf16) x = (V c main_v16 : S2048x1024.Idx → EReal) i := by
  unfold iblk0
  rw [View.read_apply]
  show V c main_v16 (((cfg0.win 0).blk t).view.emb x) = V c main_v16 i
  congr 1
  refine Shape.idx_ext₂ ?_ ?_
  · show win0_0.index t (0 : Fin 2) * 512 + 1 * (x 0).val = (i 0).val
    rw [h0]; omega
  · show win0_0.index t (1 : Fin 2) * 1024 + 1 * (x 1).val = (i 1).val
    rw [h1]; omega

/-- The same for the right operand's 1024 × 1024 block. -/
theorem rightBlock_apply (c : Dev nD) (t : Fin cfg0.N) (x : S1024x1024.Idx) (i : S1024x8192.Idx)
    (h0 : (i 0).val = win0_1.index t (0 : Fin 2) * 1024 + (x 0).val)
    (h1 : (i 1).val = win0_1.index t (1 : Fin 2) * 1024 + (x 1).val) :
    (iblk0 V c 1 t : Vec Ideal S1024x1024 .bf16) x = (V c main_v17 : S1024x8192.Idx → EReal) i := by
  unfold iblk0
  rw [View.read_apply]
  show V c main_v17 (((cfg0.win 1).blk t).view.emb x) = V c main_v17 i
  congr 1
  refine Shape.idx_ext₂ ?_ ?_
  · show win0_1.index t (0 : Fin 2) * 1024 + 1 * (x 0).val = (i 0).val
    rw [h0]; omega
  · show win0_1.index t (1 : Fin 2) * 1024 + 1 * (x 1).val = (i 1).val
    rw [h1]; omega

/-! ## What a point writes back -/

/-- At every point, what the result window writes back is its block of the whole product of the two arrays as the region
    finds them: the body stored the block product of the two input blocks, the left block's rows are the result block's
    rows of the left array, the right block's columns the result block's columns of the right array. -/
theorem writeBack_eq (c : Dev nD) (t : Fin cfg0.N) :
    (dat0 V c).flushed 2 t = ((cfg0.win 2).blk t).view.read (Elt Ideal) (rowByColumn (V c main_v16) (V c main_v17)) := by
  show (cfg0.win 2).cut (grid0.coords t) ((dat0 V c).after 2 t) = _
  rw [after0_2 V c t, blockStore_eq (iblk0 V c 0 t) (iblk0 V c 1 t)]
  obtain ⟨e00, e01, e10, e11, -, -⟩ := blockIndex_facts t
  funext y
  show (k0_pay1 (F := Ideal) (iblk0 V c 0 t) (iblk0 V c 1 t) : S512x1024.Idx → EReal) y
    = rowByColumn (V c main_v16) (V c main_v17) (((cfg0.win 2).blk t).view.emb y)
  refine blockProduct_read (V c main_v16) (V c main_v17) (iblk0 V c 0 t) (iblk0 V c 1 t) y (((cfg0.win 2).blk t).view.emb y)
    (fun k => ?_) (fun k => ?_)
  · refine leftBlock_apply V c t _ _ ?_ ?_
    · show win0_2.index t (0 : Fin 2) * 512 + 1 * (y 0).val = win0_0.index t (0 : Fin 2) * 512 + (y 0).val
      rw [e00]; omega
    · show k.val = win0_0.index t (1 : Fin 2) * 1024 + k.val
      rw [e01]; omega
  · refine rightBlock_apply V c t _ _ ?_ ?_
    · show k.val = win0_1.index t (0 : Fin 2) * 1024 + k.val
      rw [e10]; omega
    · show win0_2.index t (1 : Fin 2) * 1024 + 1 * (y 1).val = win0_1.index t (1 : Fin 2) * 1024 + (y 1).val
      rw [e11]; omega

/-! ## The blocks tile the result -/

/-- An entry of the result array lies in point t's block iff on each axis its coordinate lies in the block's range. -/
theorem mem_block_iff (t : Fin cfg0.N) (i : S2048x8192.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v18).slice (win0_2.rect t)).set ↔ _
  rw [View.set_slice_whole, Rect.mem_set_unit]
  exact Iff.rfl

/-- Every entry (n, j) of the result lies in the block of the point (n / 512) · 8 + j / 1024, and every point writes its
    block back. -/
theorem covered0 (i : S2048x8192.Idx) :
    ∃ t : Fin cfg0.N, (cfg0.win 2).flush t = true ∧ i ∈ ((cfg0.win 2).blk t).view.set := by
  have hi0 : (i 0).val < 2048 := idx2_lt0 i
  have hi1 : (i 1).val < 8192 := idx2_lt1 i
  have hN : cfg0.N = 32 := N_0
  obtain ⟨t, ht⟩ : ∃ t : Fin cfg0.N, t.val = (i 0).val / 512 * 8 + (i 1).val / 1024 := ⟨⟨_, by omega⟩, rfl⟩
  obtain ⟨-, -, -, -, r0, r1⟩ := blockIndex_facts t
  refine ⟨t, flush0_2 t, ?_⟩
  rw [mem_block_iff]
  intro a
  match a with
  | ⟨0, _⟩ =>
    show win0_2.index t (0 : Fin 2) * 512 ≤ (i 0).val ∧ (i 0).val < win0_2.index t (0 : Fin 2) * 512 + 512
    rw [r0]; omega
  | ⟨1, _⟩ =>
    show win0_2.index t (1 : Fin 2) * 1024 ≤ (i 1).val ∧ (i 1).val < win0_2.index t (1 : Fin 2) * 1024 + 1024
    rw [r1]; omega

/-! ## The array the region leaves -/

/-- The left operand's array, the right operand's array and the result window's array after the region, each at its
    literal type (an entry of each is an extended real). -/
abbrev lhsArr0 (c : Dev nD) : S2048x1024.Idx → EReal := V c main_v16
abbrev rhsArr0 (c : Dev nD) : S1024x8192.Idx → EReal := V c main_v17
abbrev outArr0 (c : Dev nD) : S2048x8192.Idx → EReal := (dat0 V c).arrAt 2 cfg0.N

/-- The array the first region leaves in its output window's array (window 2) is the whole product. -/
theorem final0_fun (c : Dev nD) : (dat0 V c).arrAt 2 cfg0.N = rowByColumn (V c main_v16) (V c main_v17) :=
  (dat0 V c).arrAt_eq_of_cover 2 (rowByColumn (V c main_v16) (V c main_v17)) (fun t _ => writeBack_eq V c t) covered0

/-- The array the first region leaves in its output window's array (window 2), at (n, j). -/
theorem final0 (c : Dev nD) (n : Fin 2048) (j : Fin 8192) :
    outArr0 V c (ix2 n j) = ∑ k : Fin 1024, lhsArr0 V c (ix2 n k) * rhsArr0 V c (ix2 k j) :=
  congrFun (final0_fun V c) (ix2 n j)

end Cert.KernelIdeal.Val

end
-- ==== Proof.LibSumBlocks.lean ====
/-
  A sum over `p·q` consecutive numbers is the sum over `p` blocks of the sums over the `q` numbers of each block.
-/
import Mathlib.Algebra.BigOperators.Fin
import Mathlib.Logic.Equiv.Fin.Basic

namespace Cert.LibSumBlocks

/-- The numbers below `p·q`, block by block: number `t·q + r` is entry `r` of block `t`. -/
theorem sum_fin_mul {M : Type*} [AddCommMonoid M] (p q : ℕ) (R : ℕ → M) :
    ∑ b : Fin (p * q), R b.val = ∑ t ∈ Finset.range p, ∑ r : Fin q, R (t * q + r.val) := by
  rw [Finset.sum_range, ← Equiv.sum_comp finProdFinEquiv, Fintype.sum_prod_type]
  refine Finset.sum_congr rfl fun t _ => Finset.sum_congr rfl fun r _ => ?_
  refine congrArg R ?_
  rw [finProdFinEquiv_apply_val, Nat.mul_comm, Nat.add_comm]

end Cert.LibSumBlocks
-- ==== Proof.LibSumScale.lean ====
/-
  A filtered sum of finite extended reals, scaled.

  On the extended reals multiplication does not distribute over addition in general (an infinite factor against
  summands of both signs), but it does when the factor and every summand are real numbers. `sum_ite_mul_real`: for a
  real `s` and terms `a k` that are real wherever the predicate `P` holds, `(z + ∑ₖ [P k] a k) · s = z + ∑ₖ [P k] b k`
  whenever `z = 0` and `b k = a k · s` on `P` — the form in which a scatter-add into zeros, scaled afterwards, meets
  a scatter-add of terms scaled beforehand. `coe_sum` moves the coercion `ℝ → EReal` through a finite sum.
-/
import Mathlib.Data.EReal.Operations
import Mathlib.Algebra.BigOperators.Ring.Finset

open scoped BigOperators

namespace Cert.LibSumScale

/-- The coercion of the reals into the extended reals is additive over a finite sum. -/
theorem coe_sum {ι : Type} (S : Finset ι) (y : ι → ℝ) :
    (∑ k ∈ S, ((y k : ℝ) : EReal)) = ((∑ k ∈ S, y k : ℝ) : EReal) := by
  classical
  induction S using Finset.induction_on with
  | empty => simp
  | insert a S ha ih => rw [Finset.sum_insert ha, Finset.sum_insert ha, ih, EReal.coe_add]

/-- A filtered sum of real terms over zero, times a real, is the filtered sum of the scaled terms over zero. -/
theorem sum_ite_mul_real {K : ℕ} (P : Fin K → Prop) [DecidablePred P] (a b : Fin K → EReal) (s z : EReal)
    (hz : z = 0) (hs : ∃ x : ℝ, s = (x : EReal)) (ha : ∀ k, P k → ∃ x : ℝ, a k = (x : EReal))
    (hab : ∀ k, P k → b k = a k * s) :
    (z + ∑ k, if P k then a k else 0) * s = z + ∑ k, if P k then b k else 0 := by
  subst hz
  obtain ⟨s', rfl⟩ := hs
  rw [zero_add, zero_add]
  have h1 : ∀ k, (if P k then a k else 0) = (((if P k then (a k).toReal else 0 : ℝ)) : EReal) := by
    intro k
    by_cases hp : P k
    · obtain ⟨x, hx⟩ := ha k hp
      rw [if_pos hp, if_pos hp, hx, EReal.toReal_coe]
    · rw [if_neg hp, if_neg hp, EReal.coe_zero]
  have h2 : ∀ k, (if P k then b k else 0) = (((if P k then (a k).toReal else 0 : ℝ) * s' : ℝ) : EReal) := by
    intro k
    by_cases hp : P k
    · obtain ⟨x, hx⟩ := ha k hp
      rw [if_pos hp, if_pos hp, hab k hp, hx, EReal.toReal_coe, EReal.coe_mul]
    · rw [if_neg hp, if_neg hp, zero_mul, EReal.coe_zero]
  rw [Finset.sum_congr rfl (fun k _ => h1 k), Finset.sum_congr rfl (fun k _ => h2 k), coe_sum, coe_sum,
    ← EReal.coe_mul, Finset.sum_mul]

end Cert.LibSumScale
-- ==== Proof.Spec.lean ====
/-
  The arithmetic both programs compute, over the extended reals, and the law that joins them.

  With S the row `n` of the first product (input · weight), each edge `e` of the sparse matrix carrying a value `v e`,
  a column `col e` and a row `row e`: one program sums, for the output column `r`, the terms `v e · S (col e)` over
  the edges of row `r`; the other first builds the dense matrix `adj c r` = the sum of `v e` over the edges with
  column `c` and row `r`, and then multiplies `S` with its column `r`, accumulating the 8192 terms in four blocks
  of 2048. When every number involved is real the two agree: distributivity, and exchanging two finite sums.
-/
import Mathlib.Data.EReal.Operations
import Mathlib.Algebra.BigOperators.Ring.Finset
import Mathlib.Algebra.BigOperators.Fin
import proofs.«403620_j5248450035900_1_alg».proof.Proof.LibSumBlocks
import proofs.«403620_j5248450035900_1_alg».proof.Proof.LibSumScale

open scoped BigOperators

noncomputable section

namespace Cert.Spmm

/-- A 32-bit word read as a position among 8192 (its value modulo 8192; for a word in range, its value). -/
def wordFin (w : BitVec 32) : Fin 8192 := ⟨w.toNat % 8192, Nat.mod_lt _ (by decide)⟩

/-- A word whose signed reading lies in [0, 8192) is, unsigned, below 8192, and both readings agree. -/
theorem range_unsigned (w : BitVec 32) (h0 : 0 ≤ w.toInt) (h1 : w.toInt < 8192) :
    w.toNat < 8192 ∧ w.toInt = (w.toNat : Int) := by
  have hlt := w.isLt
  rw [BitVec.toInt_eq_toNat_cond] at h0 h1 ⊢
  split at h0 <;> split at h1 <;> omega

/-- For a word that, read signed, lies in [0, 8192): reading it signed and comparing with a position `r` is
    comparing `wordFin` with `r`. -/
theorem toInt_eq_iff (w : BitVec 32) (h0 : 0 ≤ w.toInt) (h1 : w.toInt < 8192) (r : Fin 8192) :
    w.toInt = (r.val : Int) ↔ wordFin w = r := by
  obtain ⟨hlt, he⟩ := range_unsigned w h0 h1
  rw [he, Fin.ext_iff]
  show (w.toNat : Int) = (r.val : Int) ↔ w.toNat % 8192 = r.val
  rw [Nat.mod_eq_of_lt hlt]
  omega

/-- The value of such a word is `wordFin`'s. -/
theorem wordFin_val (w : BitVec 32) (h0 : 0 ≤ w.toInt) (h1 : w.toInt < 8192) :
    ((wordFin w).val : Int) = w.toInt := by
  obtain ⟨hlt, he⟩ := range_unsigned w h0 h1
  rw [he]
  show ((w.toNat % 8192 : Nat) : Int) = (w.toNat : Int)
  rw [Nat.mod_eq_of_lt hlt]

theorem toNat_of_range (w : BitVec 32) (h0 : 0 ≤ w.toInt) (h1 : w.toInt < 8192) :
    w.toNat = (wordFin w).val := by
  obtain ⟨hlt, _⟩ := range_unsigned w h0 h1
  show w.toNat = w.toNat % 8192
  rw [Nat.mod_eq_of_lt hlt]

/-- The dense transposed adjacency: entry `(c, r)` is zero plus the values of the edges with column `c` and row `r`. -/
def adj (col row : Fin 131072 → Fin 8192) (v : Fin 131072 → EReal) (c r : Fin 8192) : EReal :=
  0 + ∑ e : Fin 131072, if col e = c ∧ row e = r then v e else 0

/-- The part of the product of `S` with a column `B` that comes from column block `kb` (positions 2048·kb … 2048·kb + 2047). -/
def blockDot (S B : Fin 8192 → EReal) (kb : Fin 4) : EReal :=
  ∑ j : Fin 2048, S ⟨kb.val * 2048 + j.val, by omega⟩ * B ⟨kb.val * 2048 + j.val, by omega⟩

/-- What the accumulating program computes at one output entry: zero plus the four block products, one after the
    other, plus the bias. -/
def accOut (S B : Fin 8192 → EReal) (b : EReal) : EReal :=
  ((((0 + blockDot S B 0) + blockDot S B 1) + blockDot S B 2) + blockDot S B 3) + b

/-- What the edge-by-edge program computes at output column `r`. -/
def edgeOut (S : Fin 8192 → EReal) (col row : Fin 131072 → Fin 8192) (v : Fin 131072 → EReal) (r : Fin 8192) (b : EReal) : EReal :=
  (0 + ∑ e : Fin 131072, if row e = r then v e * S (col e) else 0) + b

/-- Over the reals: weighting the dense matrix's column by `S` and summing over the columns is summing, over the
    edges of the row, the edge's value times `S` at the edge's column. -/
theorem real_law {C R E : Type*} [Fintype C] [Fintype E] [DecidableEq C] [DecidableEq R]
    (S : C → ℝ) (col : E → C) (row : E → R) (v : E → ℝ) (r : R) :
    (∑ c, S c * ∑ e, if col e = c ∧ row e = r then v e else 0)
      = ∑ e, if row e = r then v e * S (col e) else 0 := by
  simp_rw [Finset.mul_sum]
  rw [Finset.sum_comm]
  refine Finset.sum_congr rfl fun e _ => ?_
  by_cases hr : row e = r
  · rw [if_pos hr]
    have : ∀ c, S c * (if col e = c ∧ row e = r then v e else 0) = if col e = c then S c * v e else 0 := by
      intro c
      by_cases hc : col e = c
      · rw [if_pos ⟨hc, hr⟩, if_pos hc]
      · rw [if_neg (fun h => hc h.1), if_neg hc, mul_zero]
    rw [Finset.sum_congr rfl (fun c _ => this c), Finset.sum_ite_eq, if_pos (Finset.mem_univ _), mul_comm]
  · rw [if_neg hr]
    refine Finset.sum_eq_zero fun c _ => ?_
    rw [if_neg (fun h => hr h.2), mul_zero]

/-- A family on the 8192 positions, continued by zero to all natural numbers. -/
def zeroExt (f : Fin 8192 → ℝ) (n : ℕ) : ℝ := if h : n < 8192 then f ⟨n, h⟩ else 0

theorem zeroExt_of_lt (f : Fin 8192 → ℝ) (n : ℕ) (h : n < 8192) : zeroExt f n = f ⟨n, h⟩ := dif_pos h

/-- The 8192 positions, taken as four blocks of 2048. -/
theorem sum_blocks (f : Fin 8192 → ℝ) :
    (∑ kb : Fin 4, ∑ j : Fin 2048, f ⟨kb.val * 2048 + j.val, by omega⟩) = ∑ c : Fin 8192, f c := by
  calc (∑ kb : Fin 4, ∑ j : Fin 2048, f ⟨kb.val * 2048 + j.val, by omega⟩)
      = ∑ kb : Fin 4, ∑ j : Fin 2048, zeroExt f (kb.val * 2048 + j.val) :=
        Finset.sum_congr rfl fun kb _ => Finset.sum_congr rfl fun j _ => (zeroExt_of_lt f _ _).symm
    _ = ∑ t ∈ Finset.range 4, ∑ j : Fin 2048, zeroExt f (t * 2048 + j.val) :=
        (Finset.sum_range fun t => ∑ j : Fin 2048, zeroExt f (t * 2048 + j.val)).symm
    _ = ∑ c : Fin (4 * 2048), zeroExt f c.val := (Cert.LibSumBlocks.sum_fin_mul 4 2048 (zeroExt f)).symm
    _ = ∑ c : Fin 8192, f c := Finset.sum_congr rfl fun c _ => zeroExt_of_lt f _ c.isLt

/-- On real data the accumulating program's entry is the real sum of the 8192 products, plus the bias. -/
theorem accOut_real (s t : Fin 8192 → ℝ) (b : EReal) :
    accOut (fun c => ((s c : ℝ) : EReal)) (fun c => ((t c : ℝ) : EReal)) b = ((∑ c, s c * t c : ℝ) : EReal) + b := by
  have hblk : ∀ kb : Fin 4, blockDot (fun c => ((s c : ℝ) : EReal)) (fun c => ((t c : ℝ) : EReal)) kb
      = ((∑ j : Fin 2048, s ⟨kb.val * 2048 + j.val, by omega⟩ * t ⟨kb.val * 2048 + j.val, by omega⟩ : ℝ) : EReal) := by
    intro kb
    unfold blockDot
    rw [← Cert.LibSumScale.coe_sum]
    refine Finset.sum_congr rfl fun j _ => ?_
    exact (EReal.coe_mul _ _).symm
  unfold accOut
  rw [hblk 0, hblk 1, hblk 2, hblk 3, zero_add, ← EReal.coe_add, ← EReal.coe_add, ← EReal.coe_add,
    ← sum_blocks (fun c => s c * t c), Fin.sum_univ_four]

/-- THE LAW: for real `S` and `v` the two agree (the bias `b` is any extended real). -/
theorem accOut_eq_edgeOut (S : Fin 8192 → EReal) (hS : ∀ c, ∃ x : ℝ, S c = (x : EReal))
    (col row : Fin 131072 → Fin 8192) (v : Fin 131072 → EReal) (hv : ∀ e, ∃ x : ℝ, v e = (x : EReal))
    (r : Fin 8192) (b : EReal) :
    accOut S (fun c => adj col row v c r) b = edgeOut S col row v r b := by
  choose s hs using hS
  choose w hw using hv
  have hS' : S = fun c => ((s c : ℝ) : EReal) := funext hs
  -- the dense column is a column of reals
  have hadj : (fun c => adj col row v c r)
      = fun c => (((∑ e, if col e = c ∧ row e = r then w e else 0 : ℝ)) : EReal) := by
    funext c
    unfold adj
    rw [zero_add, ← Cert.LibSumScale.coe_sum]
    refine Finset.sum_congr rfl fun e _ => ?_
    by_cases hp : col e = c ∧ row e = r
    · rw [if_pos hp, if_pos hp, hw]
    · rw [if_neg hp, if_neg hp, EReal.coe_zero]
  -- the edge-by-edge entry is a real sum plus the bias
  have hedge : edgeOut S col row v r b = ((∑ e, if row e = r then w e * s (col e) else 0 : ℝ) : EReal) + b := by
    unfold edgeOut
    rw [zero_add, ← Cert.LibSumScale.coe_sum]
    refine congrArg (fun z => z + b) (Finset.sum_congr rfl fun e _ => ?_)
    by_cases hp : row e = r
    · rw [if_pos hp, if_pos hp, hw, hs, EReal.coe_mul]
    · rw [if_neg hp, if_neg hp, EReal.coe_zero]
  rw [hedge, hadj, hS', accOut_real, real_law]

/-- A finite sum of products of reals is real. -/
theorem sum_mul_real {K : ℕ} (f g : Fin K → EReal) (hf : ∀ k, ∃ x : ℝ, f k = (x : EReal)) (hg : ∀ k, ∃ x : ℝ, g k = (x : EReal)) :
    ∃ x : ℝ, (∑ k : Fin K, f k * g k) = (x : EReal) := by
  choose a ha using hf
  choose c hc using hg
  refine ⟨∑ k, a k * c k, ?_⟩
  rw [← Cert.LibSumScale.coe_sum]
  refine Finset.sum_congr rfl fun k _ => ?_
  rw [ha, hc, EReal.coe_mul]

end Cert.Spmm

end
-- ==== Proof.KiValue1.lean ====
/-
  The second product's result array, entry by entry, at the ideal values. With A the left operand (2048 × 8192), B the
  right one (8192 × 8192) and b the bias row: the running sum's buffer after the point (i, j, k) holds, at (p, q),
  zero plus the products' sums over the column blocks 0 … k of row 256·i + p of A with column 1024·j + q of B, added one
  block after the other; at k = 3 that sum plus b is stored into the output block and written back. So entry (n, r) of
  the result is ((((0 + d₀) + d₁) + d₂) + d₃) + b r with d_k the sum over the k-th block of 2048 positions.
-/
import proofs.«403620_j5248450035900_1_alg».proof.Proof.KiRegion1
import proofs.«403620_j5248450035900_1_alg».proof.Proof.Spec
import proofs.«403620_j5248450035900_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Cert.Spmm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Names, at their literal types -/

/-- The left operand A (2048 × 8192), the right operand B (8192 × 8192) and the bias row b (1 × 8192), as the region finds them. -/
abbrev lhsArr (c : Dev nD) : S2048x8192.Idx → EReal := V c main_v19
abbrev rhsArr (c : Dev nD) : S8192x8192.Idx → EReal := V c main_v15
abbrev biasArr (c : Dev nD) : S1x8192.Idx → EReal := V c main_v20
/-- Their blocks at a grid point: 256 × 2048 of A, 2048 × 1024 of B, 1 × 1024 of b. -/
abbrev lhsBlk (c : Dev nD) (t : Fin cfg1.N) : S256x2048.Idx → EReal := iblk1 V c 0 t
abbrev rhsBlk (c : Dev nD) (t : Fin cfg1.N) : S2048x1024.Idx → EReal := iblk1 V c 1 t
abbrev biasBlk (c : Dev nD) (t : Fin cfg1.N) : S1x1024.Idx → EReal := iblk1 V c 2 t
/-- The running sum's buffer after the point `t`. -/
abbrev sumAfter (c : Dev nD) (t : Fin cfg1.N) : S256x1024.Idx → EReal := (outsAt1 V c t.val t.isLt).2
/-- Row `n` of A and column `r` of B, as functions of the contracted position. -/
abbrev lhsRow (c : Dev nD) (n : Fin 2048) : Fin 8192 → EReal := fun cc => lhsArr V c (ix2 n cc)
abbrev rhsCol (c : Dev nD) (r : Fin 8192) : Fin 8192 → EReal := fun cc => rhsArr V c (ix2 cc r)

/-! ## The body's three values, entry by entry -/

/-- The reset value is zero everywhere. -/
theorem zeroBlock_apply (p : Fin 256) (q : Fin 1024) :
    (k1_pay1 (F := Ideal) : S256x1024.Idx → EReal) (ix2 p q) = 0 := by
  unfold k1_pay1
  rw [shapeCast_self]
  exact Ideal.ofBits_zero_f32

/-- The update adds, at (p, q), the product of row p of the A-block with column q of the B-block. -/
theorem addProduct_apply (acc : Vec Ideal S256x1024 .f32) (a : Vec Ideal S256x2048 .bf16) (b : Vec Ideal S2048x1024 .bf16)
    (p : Fin 256) (q : Fin 1024) :
    (k1_pay2 acc a b : S256x1024.Idx → EReal) (ix2 p q)
      = (acc : S256x1024.Idx → EReal) (ix2 p q) + ∑ j : Fin 2048, (a : S256x2048.Idx → EReal) (ix2 p j) * (b : S2048x1024.Idx → EReal) (ix2 j q) := by
  unfold k1_pay2
  rw [shapeCast_self, shapeCast_self, shapeCast_self]
  refine (addf_apply _ _ _).trans ?_
  congr 1
  exact Cert.LibDot.matmul_plain_apply dot_S256x2048_S2048x1024_S256x1024_1_0_0_1_n_n rfl rfl rfl rfl rfl rfl none a b p q

/-- The stored value adds, at (p, q), entry q of the bias block's one row. -/
theorem addBias_apply (acc : Vec Ideal S256x1024 .f32) (bias : Vec Ideal S1x1024 .f32) (p : Fin 256) (q : Fin 1024) :
    (k1_pay3 acc bias : S256x1024.Idx → EReal) (ix2 p q)
      = (acc : S256x1024.Idx → EReal) (ix2 p q) + (bias : S1x1024.Idx → EReal) (ix2 0 q) := by
  unfold k1_pay3
  rw [shapeCast_self]
  refine (addf_apply _ _ _).trans ?_
  congr 1
  refine broadcastTo_apply _ _ _ (ix2 0 q) ?_
  intro a
  match a with
  | ⟨0, _⟩ => rfl
  | ⟨1, _⟩ => rfl

/-! ## Where the blocks sit -/

/-- At the point t = (i·8 + j)·4 + k: A's block is at block row i, block column k; B's at block row k, block column j;
    b's at block column j; the result's at (i, j). Here i = t / 32, j = t / 4 mod 8, k = t mod 4. -/
theorem blockIndex : ∀ t : Fin cfg1.N,
    win1_0.index t (0 : Fin 2) = t.val / 32 ∧ win1_0.index t (1 : Fin 2) = t.val % 4
  ∧ win1_1.index t (0 : Fin 2) = t.val % 4 ∧ win1_1.index t (1 : Fin 2) = t.val / 4 % 8
  ∧ win1_2.index t (0 : Fin 2) = 0 ∧ win1_2.index t (1 : Fin 2) = t.val / 4 % 8
  ∧ win1_3.index t (0 : Fin 2) = t.val / 32 ∧ win1_3.index t (1 : Fin 2) = t.val / 4 % 8 :=
  (by decide +kernel : ∀ t : Fin grid1.N, _)

/-- Entry (p, j) of A's block is A at (256·i + p, 2048·k + j). -/
theorem lhsBlk_apply (c : Dev nD) (t : Fin cfg1.N) (p : Fin 256) (j : Fin 2048) (n : Fin 2048) (cc : Fin 8192)
    (hn : n.val = 256 * (t.val / 32) + p.val) (hcc : cc.val = 2048 * (t.val % 4) + j.val) :
    lhsBlk V c t (ix2 p j) = lhsArr V c (ix2 n cc) := by
  obtain ⟨e0, e1, -⟩ := blockIndex t
  show iblk1 V c 0 t (ix2 p j) = _
  unfold iblk1
  rw [View.read_apply]
  show V c main_v19 _ = V c main_v19 _
  refine congrArg _ (funext fun a => Fin.ext ?_)
  match a with
  | ⟨0, _⟩ => show win1_0.index t (0 : Fin 2) * 256 + 1 * p.val = n.val; omega
  | ⟨1, _⟩ => show win1_0.index t (1 : Fin 2) * 2048 + 1 * j.val = cc.val; omega

/-- Entry (j, q) of B's block is B at (2048·k + j, 1024·j' + q), j' the point's second coordinate. -/
theorem rhsBlk_apply (c : Dev nD) (t : Fin cfg1.N) (j : Fin 2048) (q : Fin 1024) (cc : Fin 8192) (r : Fin 8192)
    (hcc : cc.val = 2048 * (t.val % 4) + j.val) (hr : r.val = 1024 * (t.val / 4 % 8) + q.val) :
    rhsBlk V c t (ix2 j q) = rhsArr V c (ix2 cc r) := by
  obtain ⟨-, -, e0, e1, -⟩ := blockIndex t
  show iblk1 V c 1 t (ix2 j q) = _
  unfold iblk1
  rw [View.read_apply]
  show V c main_v15 _ = V c main_v15 _
  refine congrArg _ (funext fun a => Fin.ext ?_)
  match a with
  | ⟨0, _⟩ => show win1_1.index t (0 : Fin 2) * 2048 + 1 * j.val = cc.val; omega
  | ⟨1, _⟩ => show win1_1.index t (1 : Fin 2) * 1024 + 1 * q.val = r.val; omega

/-- Entry q of the bias block's row is b at 1024·j' + q. -/
theorem biasBlk_apply (c : Dev nD) (t : Fin cfg1.N) (q : Fin 1024) (r : Fin 8192)
    (hr : r.val = 1024 * (t.val / 4 % 8) + q.val) :
    biasBlk V c t (ix2 0 q) = biasArr V c (ix2 0 r) := by
  obtain ⟨-, -, -, -, e0, e1, -⟩ := blockIndex t
  show iblk1 V c 2 t (ix2 0 q) = _
  unfold iblk1
  rw [View.read_apply]
  show V c main_v20 _ = V c main_v20 _
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * q.val = r.val; omega

/-- The product the point `t` adds at (p, q) is the part of (row n of A) · (column r of B) from column block t mod 4. -/
theorem blockProduct (c : Dev nD) (t : Fin cfg1.N) (kb : Fin 4) (hk : t.val % 4 = kb.val) (p : Fin 256) (q : Fin 1024)
    (n : Fin 2048) (r : Fin 8192) (hn : n.val = 256 * (t.val / 32) + p.val) (hr : r.val = 1024 * (t.val / 4 % 8) + q.val) :
    ∑ j : Fin 2048, lhsBlk V c t (ix2 p j) * rhsBlk V c t (ix2 j q) = blockDot (lhsRow V c n) (rhsCol V c r) kb := by
  unfold blockDot
  refine Finset.sum_congr rfl fun j _ => ?_
  have hj : j.val < 2048 := j.isLt
  have hkb : kb.val < 4 := kb.isLt
  exact congrArg₂ (· * ·)
    (lhsBlk_apply V c t p j n ⟨kb.val * 2048 + j.val, by omega⟩ hn (by show kb.val * 2048 + j.val = _; omega))
    (rhsBlk_apply V c t j q ⟨kb.val * 2048 + j.val, by omega⟩ r (by show kb.val * 2048 + j.val = _; omega) hr)

/-! ## The running sum, block after block -/

/-- Away from k = 0 the running sum at (p, q) is the one the point before left plus this point's product. -/
theorem sum_step (c : Dev nD) (t : Fin cfg1.N) (h : ¬t.val % 4 = 0) (p : Fin 256) (q : Fin 1024) :
    sumAfter V c t (ix2 p q)
      = sumAfter V c ⟨t.val - 1, Nat.lt_of_le_of_lt (Nat.sub_le _ _) t.isLt⟩ (ix2 p q)
        + ∑ j : Fin 2048, lhsBlk V c t (ix2 p j) * rhsBlk V c t (ix2 j q) := by
  refine (congrFun (acc_next V c t h) (ix2 p q)).trans ?_
  exact addProduct_apply (sumAfter V c ⟨t.val - 1, Nat.lt_of_le_of_lt (Nat.sub_le _ _) t.isLt⟩) (lhsBlk V c t) (rhsBlk V c t) p q

/-- After a point with k = 0: zero plus the first block's part. -/
theorem sum_k0 (c : Dev nD) (t : Fin cfg1.N) (h : t.val % 4 = 0) (p : Fin 256) (q : Fin 1024)
    (n : Fin 2048) (r : Fin 8192) (hn : n.val = 256 * (t.val / 32) + p.val) (hr : r.val = 1024 * (t.val / 4 % 8) + q.val) :
    sumAfter V c t (ix2 p q) = 0 + blockDot (lhsRow V c n) (rhsCol V c r) 0 := by
  refine (congrFun (acc_first V c t h) (ix2 p q)).trans ?_
  refine (addProduct_apply (k1_pay1 (F := Ideal)) (lhsBlk V c t) (rhsBlk V c t) p q).trans ?_
  exact congrArg₂ (· + ·) (zeroBlock_apply p q) (blockProduct V c t 0 h p q n r hn hr)

/-- After a point with k = 1: the second block's part added. -/
theorem sum_k1 (c : Dev nD) (t : Fin cfg1.N) (h : t.val % 4 = 1) (p : Fin 256) (q : Fin 1024)
    (n : Fin 2048) (r : Fin 8192) (hn : n.val = 256 * (t.val / 32) + p.val) (hr : r.val = 1024 * (t.val / 4 % 8) + q.val) :
    sumAfter V c t (ix2 p q)
      = (0 + blockDot (lhsRow V c n) (rhsCol V c r) 0) + blockDot (lhsRow V c n) (rhsCol V c r) 1 := by
  refine (sum_step V c t (by omega) p q).trans ?_
  exact congrArg₂ (· + ·)
    (sum_k0 V c ⟨t.val - 1, Nat.lt_of_le_of_lt (Nat.sub_le _ _) t.isLt⟩ (by show (t.val - 1) % 4 = 0; omega) p q n r
      (by show n.val = 256 * ((t.val - 1) / 32) + p.val; omega) (by show r.val = 1024 * ((t.val - 1) / 4 % 8) + q.val; omega))
    (blockProduct V c t 1 h p q n r hn hr)

/-- After a point with k = 2: the third block's part added. -/
theorem sum_k2 (c : Dev nD) (t : Fin cfg1.N) (h : t.val % 4 = 2) (p : Fin 256) (q : Fin 1024)
    (n : Fin 2048) (r : Fin 8192) (hn : n.val = 256 * (t.val / 32) + p.val) (hr : r.val = 1024 * (t.val / 4 % 8) + q.val) :
    sumAfter V c t (ix2 p q)
      = ((0 + blockDot (lhsRow V c n) (rhsCol V c r) 0) + blockDot (lhsRow V c n) (rhsCol V c r) 1)
        + blockDot (lhsRow V c n) (rhsCol V c r) 2 := by
  refine (sum_step V c t (by omega) p q).trans ?_
  exact congrArg₂ (· + ·)
    (sum_k1 V c ⟨t.val - 1, Nat.lt_of_le_of_lt (Nat.sub_le _ _) t.isLt⟩ (by show (t.val - 1) % 4 = 1; omega) p q n r
      (by show n.val = 256 * ((t.val - 1) / 32) + p.val; omega) (by show r.val = 1024 * ((t.val - 1) / 4 % 8) + q.val; omega))
    (blockProduct V c t 2 h p q n r hn hr)

/-- After a point with k = 3: all four parts, in order. -/
theorem sum_k3 (c : Dev nD) (t : Fin cfg1.N) (h : t.val % 4 = 3) (p : Fin 256) (q : Fin 1024)
    (n : Fin 2048) (r : Fin 8192) (hn : n.val = 256 * (t.val / 32) + p.val) (hr : r.val = 1024 * (t.val / 4 % 8) + q.val) :
    sumAfter V c t (ix2 p q)
      = (((0 + blockDot (lhsRow V c n) (rhsCol V c r) 0) + blockDot (lhsRow V c n) (rhsCol V c r) 1)
        + blockDot (lhsRow V c n) (rhsCol V c r) 2) + blockDot (lhsRow V c n) (rhsCol V c r) 3 := by
  refine (sum_step V c t (by omega) p q).trans ?_
  exact congrArg₂ (· + ·)
    (sum_k2 V c ⟨t.val - 1, Nat.lt_of_le_of_lt (Nat.sub_le _ _) t.isLt⟩ (by show (t.val - 1) % 4 = 2; omega) p q n r
      (by show n.val = 256 * ((t.val - 1) / 32) + p.val; omega) (by show r.val = 1024 * ((t.val - 1) / 4 % 8) + q.val; omega))
    (blockProduct V c t 3 h p q n r hn hr)

/-! ## The result array -/

/-- Entry (n, r) of the result: the four block parts of (row n of A) · (column r of B) added in order to zero, plus b r. -/
def resultAt (c : Dev nD) (n : Fin 2048) (r : Fin 8192) : EReal :=
  accOut (lhsRow V c n) (rhsCol V c r) (biasArr V c (ix2 0 r))

/-- The same as one function of the array's index. -/
def resultFn (c : Dev nD) : S2048x8192.Idx → EReal :=
  fun i => resultAt V c ⟨(i 0).val, idx2_lt0 i⟩ ⟨(i 1).val, idx2_lt1 i⟩

/-- What a point with k = 3 stores into the output block, at (p, q), is the result at (256·i + p, 1024·j + q). -/
theorem stored_apply (c : Dev nD) (t : Fin cfg1.N) (h : t.val % 4 = 3) (p : Fin 256) (q : Fin 1024)
    (n : Fin 2048) (r : Fin 8192) (hn : n.val = 256 * (t.val / 32) + p.val) (hr : r.val = 1024 * (t.val / 4 % 8) + q.val) :
    ((outsAt1 V c t.val t.isLt).1 : S256x1024.Idx → EReal) (ix2 p q) = resultAt V c n r := by
  refine (congrFun (out_last V c t h) (ix2 p q)).trans ?_
  refine (addBias_apply (sumAfter V c t) (biasBlk V c t) p q).trans ?_
  exact congrArg₂ (· + ·) (sum_k3 V c t h p q n r hn hr) (biasBlk_apply V c t q r hr)

/-- So the block written back at such a point is the result read through the point's block of the array. -/
theorem flushed_eq (c : Dev nD) (t : Fin cfg1.N) (hf : (cfg1.win 3).flush t = true) :
    (dat1 V c).flushed 3 t = ((cfg1.win 3).blk t).view.read (Elt Ideal) (resultFn V c) := by
  have h3 : t.val % 4 = 3 := (flush1_3 t).mp hf
  obtain ⟨-, -, -, -, -, -, e0, e1⟩ := blockIndex t
  have hN : cfg1.N = 256 := N_1
  have ht : t.val < 256 := hN ▸ t.isLt
  show (cfg1.win 3).cut (grid1.coords t) ((dat1 V c).after 3 t) = _
  rw [after1_3 V c t]
  have key : ∀ y : S256x1024.Idx, ((outsAt1 V c t.val t.isLt).1 : S256x1024.Idx → EReal) y
      = resultFn V c (((cfg1.win 3).blk t).view.emb y) := by
    intro y
    obtain ⟨p, q, rfl⟩ : ∃ (p : Fin 256) (q : Fin 1024), y = ix2 p q := ⟨y 0, y 1, eq_ix2 y⟩
    have hp : p.val < 256 := p.isLt
    have hq : q.val < 1024 := q.isLt
    have hemb : ((cfg1.win 3).blk t).view.emb (ix2 p q)
        = ix2 (⟨256 * (t.val / 32) + p.val, by omega⟩ : Fin 2048) (⟨1024 * (t.val / 4 % 8) + q.val, by omega⟩ : Fin 8192) := by
      funext a
      apply Fin.ext
      match a with
      | ⟨0, _⟩ => show win1_3.index t (0 : Fin 2) * 256 + 1 * p.val = 256 * (t.val / 32) + p.val; omega
      | ⟨1, _⟩ => show win1_3.index t (1 : Fin 2) * 1024 + 1 * q.val = 1024 * (t.val / 4 % 8) + q.val; omega
    rw [hemb]
    exact stored_apply V c t h3 p q _ _ rfl rfl
  funext y
  show _ = resultFn V c (((cfg1.win 3).blk t).view.emb y)
  exact key y

/-- An index of the result array is in the point's block iff each coordinate is in the block's range. -/
theorem mem_outBlk (t : Fin cfg1.N) (i : S2048x8192.Idx) :
    i ∈ ((cfg1.win 3).blk t).view.set ↔ ∀ a : Fin 2, win1_3.index t a * S256x1024.size a ≤ (i a).val
      ∧ (i a).val < win1_3.index t a * S256x1024.size a + S256x1024.size a := by
  show i ∈ ((View.whole main_v21).slice (win1_3.rect t)).set ↔ _
  rw [View.set_slice_whole, Rect.mem_set_unit]
  exact Iff.rfl

/-- Every index (n, r) of the result array lies in the block of the storing point of (n / 256, r / 1024). -/
theorem covered (i : S2048x8192.Idx) :
    ∃ t : Fin cfg1.N, (cfg1.win 3).flush t = true ∧ i ∈ ((cfg1.win 3).blk t).view.set := by
  have hi0 : (i 0).val < 2048 := idx2_lt0 i
  have hi1 : (i 1).val < 8192 := idx2_lt1 i
  have hN : cfg1.N = 256 := N_1
  obtain ⟨t, ht⟩ : ∃ t : Fin cfg1.N, t.val = ((i 0).val / 256 * 8 + (i 1).val / 1024) * 4 + 3 :=
    ⟨⟨((i 0).val / 256 * 8 + (i 1).val / 1024) * 4 + 3, by rw [hN]; omega⟩, rfl⟩
  obtain ⟨-, -, -, -, -, -, e0, e1⟩ := blockIndex t
  refine ⟨t, (flush1_3 t).mpr (by omega), ?_⟩
  rw [mem_outBlk]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 1024 ≤ (i 1).val ∧ (i 1).val < win1_3.index t (1 : Fin 2) * 1024 + 1024
    omega

/-- The array the second region leaves in its output window's array (window 3), at (n, r). -/
theorem final1 (c : Dev nD) (n : Fin 2048) (r : Fin 8192) :
    ((dat1 V c).arrAt 3 cfg1.N : S2048x8192.Idx → EReal) (ix2 n r)
      = accOut (fun cc => (V c main_v19 : S2048x8192.Idx → EReal) (ix2 n cc))
          (fun cc => (V c main_v15 : S8192x8192.Idx → EReal) (ix2 cc r))
          ((V c main_v20 : S1x8192.Idx → EReal) (ix2 0 r)) := by
  have hall : (dat1 V c).arrAt 3 cfg1.N = resultFn V c :=
    (dat1 V c).arrAt_eq_of_cover 3 (resultFn V c) (flushed_eq V c) covered
  exact congrFun hall (ix2 n r)

end Cert.KernelIdeal.Val

end
-- ==== Proof.LibScatterPoint.lean ====
/-
  A scatter-add of SCALARS into a matrix, every update addressed by a PAIR of indices that sits in one row of a
  two-column index array, read at an entry.

  What `operand.at[p, q].add(updates)` lowers to for an operand `[U, V]`, two index vectors `p`, `q` of length `K`
  stacked as the two columns of scatter indices `[K, 2]` (row `k` is the pair of update `k`: column 0 addresses the
  operand's first axis, column 1 its second) and updates `[K]`: `stablehlo.scatter` with an `add` body and the
  dimension numbers update_window_dims `[]`, inserted_window_dims `[0, 1]`, scatter_dims_to_operand_dims `[0, 1]`,
  index_vector_dim `1`. The updates have no window axis, so update `k` is one scalar; it lands at operand entry
  `(idx[k, 0], idx[k, 1])`, both words read as SIGNED integers and neither clamped: when either of them is outside
  its axis the update contributes nothing. Hence the result at `(u, v)` is the operand there plus the sum of those
  updates `k` whose row of the index array, read signed, is exactly `(u, v)` (`scatterAdd_point_apply`).

  Everything is stated for ANY record of dimension numbers whose four lists are the ones above (on a written record
  each of the four hypotheses is `rfl`), with every extent and the index words' width a variable. `pointDims` is
  that record over an arbitrary proof of its side conditions; `origin_fst` / `origin_snd` compute where update `k`'s
  (one-element) window begins on the operand's two axes, `offset_zero` says the offset inside the window is 0 on
  both axes (both are inserted axes), `lands_iff` says at which entry an update lands, and `sum_rank1` turns the sum
  over the updates' rank-1 index set into the sum over `Fin K`.
-/
import Idealize.ShloMosaic.Lib.ValueIdx

noncomputable section

open scoped BigOperators

namespace Cert.LibScatterPoint

open Idealize.ShloMosaic Idealize.ShloMosaic.ValueIdx

/-- The dimension numbers of a scatter of scalars into a matrix `[U, V]` by the rows of an index array `[K, 2]`,
    updates `[K]`, over any evidence `wf` of their side conditions. -/
abbrev pointDims (U V K : Nat)
    (wf : ScatterDims.WF ⟨2, ![U, V]⟩ ⟨2, ![K, 2]⟩ ⟨1, ![K]⟩ [] [0, 1] [0, 1] 1) :
    ScatterDims ⟨2, ![U, V]⟩ ⟨2, ![K, 2]⟩ ⟨1, ![K]⟩ where
  updateWindowDims := []
  insertedWindowDims := [0, 1]
  scatterDimsToOperandDims := [0, 1]
  indexVectorDim := 1
  wf := wf

/-- The updates' index set is `Fin K`: a sum over it is the sum over the one coordinate. -/
theorem sum_rank1 {M : Type*} [AddCommMonoid M] {K : Nat} (f : (⟨1, ![K]⟩ : Shape).Idx → M) :
    ∑ j, f j = ∑ k : Fin K, f (ix1 k) := by
  let e : Fin K ≃ (⟨1, ![K]⟩ : Shape).Idx :=
    { toFun := fun k => ix1 k
      invFun := fun j => j 0
      left_inv := fun _ => rfl
      right_inv := fun j => (eq_ix1 j).symm }
  exact (Equiv.sum_comp e f).symm

section Point

variable {U V K w : Nat}
  (wf : ScatterDims.WF ⟨2, ![U, V]⟩ ⟨2, ![K, 2]⟩ ⟨1, ![K]⟩ [] [0, 1] [0, 1] 1)

/-- On the operand's first axis the window of update `k` begins at column 0 of row `k` of the index array, read
    signed. -/
theorem origin_fst (idx : IVec ⟨2, ![K, 2]⟩ w) (k : Fin K) :
    (pointDims U V K wf).start (ix1 k) idx 0 = (idx (ix2 k 0)).toInt := by
  unfold ScatterDims.start
  rw [dif_pos (show (0 : Fin 2) ∈ (pointDims U V K wf).scatterDimsToOperandDims from by
    show (0 : Fin 2) ∈ ([0, 1] : List (Fin 2)); decide)]
  congr 2
  funext b; refine Fin.ext ?_
  match b with
  | ⟨0, _⟩ => rfl
  | ⟨1, _⟩ => rfl

/-- On the second axis it begins at column 1 of that row, read signed. -/
theorem origin_snd (idx : IVec ⟨2, ![K, 2]⟩ w) (k : Fin K) :
    (pointDims U V K wf).start (ix1 k) idx 1 = (idx (ix2 k 1)).toInt := by
  unfold ScatterDims.start
  rw [dif_pos (show (1 : Fin 2) ∈ (pointDims U V K wf).scatterDimsToOperandDims from by
    show (1 : Fin 2) ∈ ([0, 1] : List (Fin 2)); decide)]
  congr 2
  funext b; refine Fin.ext ?_
  match b with
  | ⟨0, _⟩ => rfl
  | ⟨1, _⟩ => rfl

/-- Both operand axes are inserted axes: the offset inside the window is 0 on each. -/
theorem offset_zero (j : (⟨1, ![K]⟩ : Shape).Idx) (a : Fin 2) : (pointDims U V K wf).window j a = 0 := by
  unfold ScatterDims.window
  have hno : ¬ a ∈ (pointDims U V K wf).sKept := by
    show ¬ a ∈ (List.finRange 2).filter (· ∉ ([0, 1] : List (Fin 2)))
    revert a; decide
  rw [dif_neg hno]

/-- WHERE AN UPDATE LANDS: update `k` lands at entry `(u, v)` exactly when row `k` of the index array, read signed,
    is `(u, v)`. -/
theorem lands_iff (idx : IVec ⟨2, ![K, 2]⟩ w) (k : Fin K) (u : Fin U) (v : Fin V) :
    (pointDims U V K wf).resultIdx? (ix1 k) idx = some (ix2 u v) ↔
      (idx (ix2 k 0)).toInt = (u.val : Int) ∧ (idx (ix2 k 1)).toInt = (v.val : Int) := by
  have hu : u.val < U := u.isLt
  have hv : v.val < V := v.isLt
  unfold ScatterDims.resultIdx?
  constructor
  · intro h
    split at h
    · rename_i hin
      have hcoord := Option.some.inj h
      have c0 := congrArg Fin.val (congrFun hcoord 0)
      have c1 := congrArg Fin.val (congrFun hcoord 1)
      have n0 := (hin 0).1
      have n1 := (hin 1).1
      simp only [origin_fst, origin_snd, offset_zero] at c0 c1 n0 n1
      constructor
      · change ((idx (ix2 k 0)).toInt + ((0 : Nat) : Int)).toNat = u.val at c0
        omega
      · change ((idx (ix2 k 1)).toInt + ((0 : Nat) : Int)).toNat = v.val at c1
        omega
    · exact absurd h (by simp)
  · rintro ⟨e0, e1⟩
    have hin : ∀ a : Fin 2,
        0 ≤ (pointDims U V K wf).start (ix1 k) idx a + ((pointDims U V K wf).window (ix1 k) a : Int) ∧
        (pointDims U V K wf).start (ix1 k) idx a + ((pointDims U V K wf).window (ix1 k) a : Int)
          < ((⟨2, ![U, V]⟩ : Shape).size a : Int) := by
      intro a
      match a with
      | ⟨0, _⟩ =>
        rw [show (⟨0, by omega⟩ : Fin 2) = 0 from rfl, origin_fst, offset_zero, e0]
        change 0 ≤ (u.val : Int) + ((0 : Nat) : Int) ∧ (u.val : Int) + ((0 : Nat) : Int) < (U : Int)
        omega
      | ⟨1, _⟩ =>
        rw [show (⟨1, by omega⟩ : Fin 2) = 1 from rfl, origin_snd, offset_zero, e1]
        change 0 ≤ (v.val : Int) + ((0 : Nat) : Int) ∧ (v.val : Int) + ((0 : Nat) : Int) < (V : Int)
        omega
    rw [dif_pos hin]
    congr 1
    funext a; refine Fin.ext ?_
    match a with
    | ⟨0, _⟩ =>
      show ((pointDims U V K wf).start (ix1 k) idx 0 + ((pointDims U V K wf).window (ix1 k) 0 : Int)).toNat = u.val
      rw [origin_fst, offset_zero, e0]; omega
    | ⟨1, _⟩ =>
      show ((pointDims U V K wf).start (ix1 k) idx 1 + ((pointDims U V K wf).window (ix1 k) 1 : Int)).toNat = v.val
      rw [origin_snd, offset_zero, e1]; omega

/-- The scatter-add over the written record, read at `(u, v)`. -/
theorem scatterAdd_pointDims_apply (x : (⟨2, ![U, V]⟩ : Shape).Idx → EReal) (idx : IVec ⟨2, ![K, 2]⟩ w)
    (upd : (⟨1, ![K]⟩ : Shape).Idx → EReal) (u : Fin U) (v : Fin V) :
    Ideal.hostScatterAdd (pointDims U V K wf) x idx upd (ix2 u v) =
      x (ix2 u v) + ∑ k : Fin K,
        if (idx (ix2 k 0)).toInt = (u.val : Int) ∧ (idx (ix2 k 1)).toInt = (v.val : Int) then upd (ix1 k) else 0 := by
  unfold Ideal.hostScatterAdd
  congr 1
  rw [Finset.sum_filter, sum_rank1]
  refine Finset.sum_congr rfl fun k _ => ?_
  by_cases h : (idx (ix2 k 0)).toInt = (u.val : Int) ∧ (idx (ix2 k 1)).toInt = (v.val : Int)
  · rw [if_pos h, if_pos ((lands_iff wf idx k u v).mpr h)]
  · rw [if_neg h, if_neg (fun h' => h ((lands_iff wf idx k u v).mp h'))]

end Point

/-- THE SCATTER-ADD OF SCALARS BY ROWS OF INDEX PAIRS, READ AT `(u, v)`: the operand there plus the updates whose
    row of the index array, read signed, is `(u, v)`. -/
theorem scatterAdd_point_apply {U V K w : Nat}
    (d : ScatterDims ⟨2, ![U, V]⟩ ⟨2, ![K, 2]⟩ ⟨1, ![K]⟩)
    (huw : d.updateWindowDims = []) (hiw : d.insertedWindowDims = [0, 1])
    (hsd : d.scatterDimsToOperandDims = [0, 1]) (hiv : d.indexVectorDim = 1)
    (x : (⟨2, ![U, V]⟩ : Shape).Idx → EReal) (idx : IVec ⟨2, ![K, 2]⟩ w)
    (upd : (⟨1, ![K]⟩ : Shape).Idx → EReal) (u : Fin U) (v : Fin V) :
    Ideal.hostScatterAdd d x idx upd (ix2 u v) =
      x (ix2 u v) + ∑ k : Fin K,
        if (idx (ix2 k 0)).toInt = (u.val : Int) ∧ (idx (ix2 k 1)).toInt = (v.val : Int) then upd (ix1 k) else 0 := by
  obtain ⟨uw, iw, sd, iv, wf⟩ := d
  dsimp only at huw hiw hsd hiv
  subst huw hiw hsd hiv
  exact scatterAdd_pointDims_apply wf x idx upd u v

end Cert.LibScatterPoint

end
-- ==== Proof.HostVals.lean ====
/-
  What the kernel program's host operations write, read at an index (at the ideal values): the two casts of the
  inputs and the cast of the first product are the identity; the reshaped bias is the bias; and the scatter-add into
  zeros is the dense transposed adjacency: entry (c, r) is zero plus the values of the edges with column c and row r
  (rows and columns in range, so the wrap of negative indices does nothing and no update is dropped).

  The scatter's three operands are named first: `zeros` (the zero constant spread over the matrix), `wrapped x`
  (a vector of positions with 8192 added to its negative entries) and `pairs p q` (the two-column index array whose
  row `k` is `(p k, q k)`). Each is read at an index by a lemma of its own (`wrapped_apply`, `pairs_col0`,
  `pairs_col1`), stated over arbitrary vectors; `v15_apply` then reads the scatter-add of scalars by index pairs
  at `(c, r)` and compares it, edge by edge, with the adjacency's defining sum.
-/
import proofs.«403620_j5248450035900_1_alg».proof.Proof.Gen.KernelIdeal.Launch
import proofs.«403620_j5248450035900_1_alg».proof.Proof.Spec
import proofs.«403620_j5248450035900_1_alg».proof.Proof.LibScatterPoint
import Idealize.ShloMosaic.Lib.StableHlo.Run
import Idealize.ShloMosaic.Lib.ValueIdx
import Idealize.ShloMosaic.Lib.Pipeline.Value
import Idealize.ShloMosaic.PureOps.Ideal.Laws

noncomputable section

namespace Cert.Spmm.Host

open Cert.KernelIdeal Cert.KernelIdeal.Gen Idealize.ShloMosaic Idealize.ShloMosaic.TcCoe Idealize.ShloMosaic.ValueIdx Idealize.SL.Sem Cert.Spmm

/-! ## The scatter's operands -/

/-- The wrap of negative positions as the program writes it, elementwise: `x < 0 ? x + 8192 : x`, the comparison
    signed. -/
abbrev wrapped (x : IVec S131072 32) : IVec S131072 32 :=
  select (cmpi .slt x (broadcastInDim S131072 ![] bcast_S_S131072 (constantI S_ 32 0#32)))
    (addi x (broadcastInDim S131072 ![] bcast_S_S131072 (constantI S_ 32 8192#32))) x

/-- The index array `[131072, 2]` with column 0 the vector `p` and column 1 the vector `q`: each vector made a
    one-column matrix, the two set side by side. -/
abbrev pairs (p q : IVec S131072 32) : IVec S131072x2 32 :=
  concatenate S131072x2 1
    [⟨S131072x1, broadcastInDim S131072x1 ![0] bcast_S131072_S131072x1_0 p⟩,
     ⟨S131072x1, broadcastInDim S131072x1 ![0] bcast_S131072_S131072x1_0 q⟩]
    concatenates_S131072x1_S131072x1_S131072x2_d1

/-- The matrix the scatter adds into: the constant whose word is all zero bits, at every entry. -/
abbrev zeros : FVec Ideal S8192x8192 .f32 :=
  broadcastInDim S8192x8192 ![] bcast_S_S8192x8192 (constant (F := Ideal) S_ .f32 0x00000000#32)

/-- A word that is not negative when read signed passes the wrap unchanged: the signed test `w < 0` fails, so the
    select keeps `w` and drops `w + 8192`. -/
theorem wrap_word (w : BitVec 32) (h0 : 0 ≤ w.toInt) :
    Scalar.select (IntOp.cmpi .slt w 0#32) (IntOp.addi w 8192#32) w = w := by
  have hbit : IntOp.cmpi .slt w 0#32 = 0#1 := by
    show BitVec.ofBool (w.slt 0#32) = 0#1
    have hlt : w.slt 0#32 = false := by
      unfold BitVec.slt
      exact decide_eq_false (by rw [BitVec.toInt_zero]; omega)
    rw [hlt]; rfl
  rw [hbit, select_zero]

/-- The wrapped vector at a position whose entry is not negative is the entry. -/
theorem wrapped_apply (x : IVec S131072 32) (i : S131072.Idx) (h0 : 0 ≤ (x i).toInt) : wrapped x i = x i :=
  wrap_word (x i) h0

/-- Column 0 of row `k` of the index array is `p k`: the position falls in the first of the two pieces, a one-column
    copy of `p`. -/
theorem pairs_col0 (p q : IVec S131072 32) (k : Fin 131072) : pairs p q (ix2 k 0) = p (ix1 k) := by
  refine (concatenate_pair_apply_left (t := S131072x2) (s₁ := S131072x1) (s₂ := S131072x1) (1 : Fin 2) _ _
    concatenates_S131072x1_S131072x1_S131072x2_d1 (ix2 k (0 : Fin 2)) rfl (ix2 k (0 : Fin 1)) ?_).trans ?_
  · intro a
    match a with
    | ⟨0, _⟩ => rfl
    | ⟨1, _⟩ => rfl
  · refine broadcastInDim_apply (s := S131072) (t := S131072x1) _ bcast_S131072_S131072x1_0 p (ix2 k (0 : Fin 1)) (ix1 k) ?_
    intro a
    match a with
    | ⟨0, _⟩ => rfl

/-- Column 1 of row `k` is `q k`: the position falls in the second piece, one past the first piece's single column. -/
theorem pairs_col1 (p q : IVec S131072 32) (k : Fin 131072) : pairs p q (ix2 k 1) = q (ix1 k) := by
  refine (concatenate_pair_apply_right (t := S131072x2) (s₁ := S131072x1) (s₂ := S131072x1) (1 : Fin 2) _ _
    concatenates_S131072x1_S131072x1_S131072x2_d1 (ix2 k (1 : Fin 2)) rfl rfl (ix2 k (0 : Fin 1)) ?_ ?_).trans ?_
  · intro a ha
    match a with
    | ⟨0, _⟩ => rfl
    | ⟨1, _⟩ => exact absurd rfl ha
  · rfl
  · refine broadcastInDim_apply (s := S131072) (t := S131072x1) _ bcast_S131072_S131072x1_0 q (ix2 k (0 : Fin 1)) (ix1 k) ?_
    intro a
    match a with
    | ⟨0, _⟩ => rfl

/-! ## What the host operations leave in each array -/

variable (W : Valuation τ sig (Elt Ideal))

/-- The cast of the first input to the narrow format changes no entry: at the ideal values a format change is the
    identity. -/
theorem v16_apply (i : S2048x1024.Idx) :
    (StableHlo.after (hostOps0 (F := Ideal)) W (Proc.devRef .tc main_v16) : S2048x1024.Idx → EReal) i
      = (W (Proc.devRef .tc main_arg0) : S2048x1024.Idx → EReal) i := by
  have e : (StableHlo.after (hostOps0 (F := Ideal)) W (Proc.devRef .tc main_v16) : S2048x1024.Idx → EReal)
      = (W (Proc.devRef .tc main_arg0) : S2048x1024.Idx → EReal) := by
    after_results
    rfl
  exact congrFun e i

/-- The same for the second input. -/
theorem v17_apply (i : S1024x8192.Idx) :
    (StableHlo.after (hostOps0 (F := Ideal)) W (Proc.devRef .tc main_v17) : S1024x8192.Idx → EReal) i
      = (W (Proc.devRef .tc main_arg1) : S1024x8192.Idx → EReal) i := by
  have e : (StableHlo.after (hostOps0 (F := Ideal)) W (Proc.devRef .tc main_v17) : S1024x8192.Idx → EReal)
      = (W (Proc.devRef .tc main_arg1) : S1024x8192.Idx → EReal) := by
    after_results
    rfl
  exact congrFun e i

/-- THE DENSE MATRIX. Entry `(c, r)` of the scatter-add into zeros is `adj … c r`: zero plus the values of the edges
    whose column word is `c` and whose row word is `r`. With every word in `[0, 8192)` the wrap leaves the words as
    they are, so an edge's pair read signed is `(c, r)` exactly when its two words, as positions, are `c` and `r`. -/
theorem v15_apply
    (hrow : ∀ i, 0 ≤ ((W (Proc.devRef .tc main_arg3) : S131072.Idx → BitVec 32) i).toInt ∧ ((W (Proc.devRef .tc main_arg3) : S131072.Idx → BitVec 32) i).toInt < 8192)
    (hcol : ∀ i, 0 ≤ ((W (Proc.devRef .tc main_arg4) : S131072.Idx → BitVec 32) i).toInt ∧ ((W (Proc.devRef .tc main_arg4) : S131072.Idx → BitVec 32) i).toInt < 8192)
    (c r : Fin 8192) :
    (StableHlo.after (hostOps0 (F := Ideal)) W (Proc.devRef .tc main_v15) : S8192x8192.Idx → EReal) (ix2 c r)
      = adj (fun e => wordFin ((W (Proc.devRef .tc main_arg4) : S131072.Idx → BitVec 32) (ix1 e)))
          (fun e => wordFin ((W (Proc.devRef .tc main_arg3) : S131072.Idx → BitVec 32) (ix1 e)))
          (fun e => (W (Proc.devRef .tc main_arg5) : S131072.Idx → EReal) (ix1 e)) c r := by
  -- the array is the (identity) cast of the scatter-add of the values into `zeros` at the wrapped (column, row) pairs
  have e : (StableHlo.after (hostOps0 (F := Ideal)) W (Proc.devRef .tc main_v15) : S8192x8192.Idx → EReal)
      = truncf (F := Ideal) .bf16
          (Host.scatterAdd (F := Ideal) scatter_S8192x8192_S131072x2_S131072_n_01_01_1 zeros
            (pairs (wrapped (W (Proc.devRef .tc main_arg4))) (wrapped (W (Proc.devRef .tc main_arg3))))
            (W (Proc.devRef .tc main_arg5) : FVec Ideal S131072 .f32)) bitsLt_bf16_f32 := by
    after_results_simp
    rfl
  rw [e]
  -- read at (c, r): the operand there plus the values of the edges whose pair, read signed, is (c, r)
  refine (Cert.LibScatterPoint.scatterAdd_point_apply (U := 8192) (V := 8192) (K := 131072) (w := 32)
    scatter_S8192x8192_S131072x2_S131072_n_01_01_1 rfl rfl rfl rfl zeros
    (pairs (wrapped (W (Proc.devRef .tc main_arg4))) (wrapped (W (Proc.devRef .tc main_arg3))))
    (W (Proc.devRef .tc main_arg5) : S131072.Idx → EReal) c r).trans ?_
  unfold adj
  refine congrArg₂ (· + ·) ?_ ?_
  · -- the operand is zero everywhere
    exact Ideal.ofBits_zero_f32
  · -- edge by edge: the pair is the two words themselves, and the two tests agree on words in range
    refine Finset.sum_congr rfl fun k _ => ?_
    rw [pairs_col0, pairs_col1, wrapped_apply _ _ (hcol (ix1 k)).1, wrapped_apply _ _ (hrow (ix1 k)).1]
    exact if_congr
      (and_congr (toInt_eq_iff _ (hcol (ix1 k)).1 (hcol (ix1 k)).2 c) (toInt_eq_iff _ (hrow (ix1 k)).1 (hrow (ix1 k)).2 r))
      rfl rfl

/-- The cast of the first product to the narrow format changes no entry. -/
theorem v19_apply (i : S2048x8192.Idx) :
    (StableHlo.after (hostOps1 (F := Ideal)) W (Proc.devRef .tc main_v19) : S2048x8192.Idx → EReal) i
      = (W (Proc.devRef .tc main_v18) : S2048x8192.Idx → EReal) i := by
  have e : (StableHlo.after (hostOps1 (F := Ideal)) W (Proc.devRef .tc main_v19) : S2048x8192.Idx → EReal)
      = (W (Proc.devRef .tc main_v18) : S2048x8192.Idx → EReal) := by
    after_results
    rfl
  exact congrFun e i

/-- The bias as a one-row matrix: entry `(0, r)` has row-major position `0 · 8192 + r = r`, the position of entry `r`
    of the vector. -/
theorem v20_apply (r : Fin 8192) :
    (StableHlo.after (hostOps1 (F := Ideal)) W (Proc.devRef .tc main_v20) : S1x8192.Idx → EReal) (ix2 0 r)
      = (W (Proc.devRef .tc main_arg2) : S8192.Idx → EReal) (ix1 r) := by
  have e : (StableHlo.after (hostOps1 (F := Ideal)) W (Proc.devRef .tc main_v20) : S1x8192.Idx → EReal)
      = shapeCast S1x8192 (W (Proc.devRef .tc main_arg2) : S8192.Idx → EReal) shapeCasts_S8192_S1x8192 := by
    after_results
    rfl
  rw [e]
  refine shapeCast_apply _ _ _ (ix1 r) ?_
  rw [Shape.rowMajor_val_two, Shape.rowMajor_val_one]
  show r.val = 0 * 8192 + r.val
  omega

end Cert.Spmm.Host

end
-- ==== Proof.KiBridge.lean ====
/-
  The kernel program's result, entry by entry, in terms of the launch memory (at the ideal values, edges in range):
  entry (n, r) is the four-block accumulation of support (n, ·) against column r of the dense transposed adjacency,
  plus the bias at r — the second region's value over what the host stretches and the first region put in its operands.
-/
import proofs.«403620_j5248450035900_1_alg».proof.Proof.KiRun
import proofs.«403620_j5248450035900_1_alg».proof.Proof.KiValue0
import proofs.«403620_j5248450035900_1_alg».proof.Proof.KiValue1
import proofs.«403620_j5248450035900_1_alg».proof.Proof.HostVals
import proofs.«403620_j5248450035900_1_alg».proof.Proof.Spec

set_option maxRecDepth 16384

noncomputable section

namespace Cert.KernelIdeal.Val

open Cert.KernelIdeal Cert.KernelIdeal.Gen Cert.KernelIdeal.Hand Cert.Spmm
open Idealize.ShloMosaic Idealize.ShloMosaic.TcCoe Idealize.ShloMosaic.ValueIdx Idealize.SL.Sem

variable (m : (ℓ : Loc nD τ sig) → Buf (Elt Ideal) ℓ)

/-! ## The arrays the statement speaks of, each at its literal type -/

/-- The launch memory's six arguments on core c: the input (2048 × 1024), the weight (1024 × 8192), the bias (8192), the
    edges' row words and column words (131072 each) and the edges' values (131072). -/
abbrev launchInput (c : Dev nD) : S2048x1024.Idx → EReal := m ((c : Thread nD τ).loc main_arg0)
abbrev launchWeight (c : Dev nD) : S1024x8192.Idx → EReal := m ((c : Thread nD τ).loc main_arg1)
abbrev launchBias (c : Dev nD) : S8192.Idx → EReal := m ((c : Thread nD τ).loc main_arg2)
abbrev launchRows (c : Dev nD) : S131072.Idx → BitVec 32 := m ((c : Thread nD τ).loc main_arg3)
abbrev launchCols (c : Dev nD) : S131072.Idx → BitVec 32 := m ((c : Thread nD τ).loc main_arg4)
abbrev launchVals (c : Dev nD) : S131072.Idx → EReal := m ((c : Thread nD τ).loc main_arg5)
/-- The three operands of the second product as its region finds them: the first product (2048 × 8192), the dense
    transposed adjacency (8192 × 8192), the bias as one row (1 × 8192). -/
abbrev secondLhs (c : Dev nD) : S2048x8192.Idx → EReal := Hand.V3 m c main_v19
abbrev secondRhs (c : Dev nD) : S8192x8192.Idx → EReal := Hand.V3 m c main_v15
abbrev secondBias (c : Dev nD) : S1x8192.Idx → EReal := Hand.V3 m c main_v20
/-- The result buffer at the end of the run. -/
abbrev endResult (c : Dev nD) : S2048x8192.Idx → EReal := W4 m c (Proc.devRef .tc main_v21)

/-- Row n of the first product, as the launch memory gives it: entry cc is ∑ k, input (n, k) · weight (k, cc). -/
abbrev supportRow (c : Dev nD) (n : Fin 2048) : Fin 8192 → EReal :=
  fun cc => ∑ k : Fin 1024, launchInput m c (ix2 n k) * launchWeight m c (ix2 k cc)
/-- Column r of the dense transposed adjacency, as the launch memory gives it: entry cc is zero plus the values of the
    edges whose column word names cc and whose row word names r. -/
abbrev adjColumn (c : Dev nD) (r : Fin 8192) : Fin 8192 → EReal :=
  fun cc => adj (fun e => wordFin (launchCols m c (ix1 e))) (fun e => wordFin (launchRows m c (ix1 e)))
    (fun e => launchVals m c (ix1 e)) cc r

/-! ## The second product's operands, read back to the launch memory -/

/-- The casts of the two inputs are the identity: the first product's operands are the input and the weight. -/
theorem firstLhs_launch (c : Dev nD) (i : S2048x1024.Idx) : lhsArr0 (Hand.V1 m) c i = launchInput m c i :=
  Cert.Spmm.Host.v16_apply (W0 m c) i
theorem firstRhs_launch (c : Dev nD) (i : S1024x8192.Idx) : rhsArr0 (Hand.V1 m) c i = launchWeight m c i :=
  Cert.Spmm.Host.v17_apply (W0 m c) i

/-- The left operand of the second product is the first product: the cast between the two regions is the identity, and
    the first region left the whole product in its result array. -/
theorem v19_entry (c : Dev nD) (n : Fin 2048) (cc : Fin 8192) :
    secondLhs m c (ix2 n cc) = supportRow m c n cc := by
  have e1 : secondLhs m c (ix2 n cc) = (W2 m c (Proc.devRef .tc main_v18) : S2048x8192.Idx → EReal) (ix2 n cc) :=
    Cert.Spmm.Host.v19_apply (W2 m c) (ix2 n cc)
  have e2 : (W2 m c (Proc.devRef .tc main_v18) : S2048x8192.Idx → EReal) (ix2 n cc) = outArr0 (Hand.V1 m) c (ix2 n cc) :=
    congrFun (W2_arr m c 2) (ix2 n cc)
  refine e1.trans (e2.trans ((final0 (Hand.V1 m) c n cc).trans ?_))
  exact Finset.sum_congr rfl fun k _ =>
    congrArg₂ (fun x y : EReal => x * y) (firstLhs_launch m c (ix2 n k)) (firstRhs_launch m c (ix2 k cc))

/-- The right operand is the dense transposed adjacency: neither the first region nor the second host stretch writes
    the scattered array. -/
theorem v15_entry (c : Dev nD)
    (hrow : ∀ i, 0 ≤ (launchRows m c i).toInt ∧ (launchRows m c i).toInt < 8192)
    (hcol : ∀ i, 0 ≤ (launchCols m c i).toInt ∧ (launchCols m c i).toInt < 8192)
    (cc r : Fin 8192) :
    secondRhs m c (ix2 cc r) = adjColumn m c r cc := by
  have e1 : W3 m c (Proc.devRef .tc main_v15) = W2 m c (Proc.devRef .tc main_v15) :=
    StableHlo.after_of_writes_sub hostOps1 (W2 m c) hostOps1_writes (by decide)
  have e2 : W2 m c (Proc.devRef .tc main_v15) = W1 m c (Proc.devRef .tc main_v15) := W2_of_ne m c main_v15 (by decide)
  have e3 : secondRhs m c (ix2 cc r) = (W1 m c (Proc.devRef .tc main_v15) : S8192x8192.Idx → EReal) (ix2 cc r) :=
    congrFun (e1.trans e2) (ix2 cc r)
  exact e3.trans (Cert.Spmm.Host.v15_apply (W0 m c) hrow hcol cc r)

/-- The bias row is the bias: the reshape keeps the entries, and nothing before it writes the bias. -/
theorem v20_entry (c : Dev nD) (r : Fin 8192) :
    secondBias m c (ix2 (n0 := 1) 0 r) = launchBias m c (ix1 r) := by
  have e1 : secondBias m c (ix2 (n0 := 1) 0 r) = (W2 m c (Proc.devRef .tc main_arg2) : S8192.Idx → EReal) (ix1 r) :=
    Cert.Spmm.Host.v20_apply (W2 m c) r
  have e2 : W2 m c (Proc.devRef .tc main_arg2) = W1 m c (Proc.devRef .tc main_arg2) := W2_of_ne m c main_arg2 (by decide)
  have e3 : W1 m c (Proc.devRef .tc main_arg2) = W0 m c (Proc.devRef .tc main_arg2) :=
    StableHlo.after_of_writes_sub hostOps0 (W0 m c) hostOps0_writes (by decide)
  exact e1.trans (congrFun (e2.trans e3) (ix1 r))

/-! ## The result -/

/-- THE KERNEL PROGRAM'S RESULT at (n, r): the four-block accumulation of row n of the first product against column r
    of the dense transposed adjacency, plus the bias at r — all three read off the launch memory. -/
theorem kernel_value (c : Dev nD)
    (hrow : ∀ i, 0 ≤ (launchRows m c i).toInt ∧ (launchRows m c i).toInt < 8192)
    (hcol : ∀ i, 0 ≤ (launchCols m c i).toInt ∧ (launchCols m c i).toInt < 8192)
    (n : Fin 2048) (r : Fin 8192) :
    endResult m c (ix2 n r) = accOut (supportRow m c n) (adjColumn m c r) (launchBias m c (ix1 r)) := by
  have e1 : endResult m c (ix2 n r) = ((dat1 (Hand.V3 m) c).arrAt 3 cfg1.N : S2048x8192.Idx → EReal) (ix2 n r) :=
    congrFun (W4_arr m c 3) (ix2 n r)
  refine e1.trans ((final1 (Hand.V3 m) c n r).trans ?_)
  have hS : (fun cc : Fin 8192 => secondLhs m c (ix2 n cc)) = supportRow m c n := funext fun cc => v19_entry m c n cc
  have hB : (fun cc : Fin 8192 => secondRhs m c (ix2 cc r)) = adjColumn m c r := funext fun cc => v15_entry m c hrow hcol cc r
  show accOut (fun cc : Fin 8192 => secondLhs m c (ix2 n cc)) (fun cc : Fin 8192 => secondRhs m c (ix2 cc r))
    (secondBias m c (ix2 (n0 := 1) 0 r)) = _
  rw [hS, hB, v20_entry m c r]

end Cert.KernelIdeal.Val

end
-- ==== Proof.LibGatherRow.lean ====
import Idealize.ShloMosaic.Lib.ValueIdx

/-!
  A gather of whole rows of a table, read at an index.

  `table[ids]` over a table `[N, C]` prints as a gather whose one collapsed and start-indexed operand axis is the row
  axis (collapsed_slice_dims `[0]`, start_index_map `[0]`, slice_sizes `[1, C]`), whose one offset axis is the result's
  last and whose index vector lies on the start indices' last axis, of extent one. Result element `(…, c)` is the
  table's at `(row, c)`, `row` the start index read as a signed integer and clamped into `[0, N − 1]`: a negative
  index reads row 0, one past the end reads the last row. Stated for an arbitrary record of dimension numbers whose
  lists are the ones above (each hypothesis holds by `rfl` on a written record), at start indices `[R, K, 1]`
  (`gather_row3`) and `[R, 1]` (`gather_row2`), every extent a variable.
-/

namespace Cert.LibGatherRow

open Idealize.ShloMosaic Idealize.ShloMosaic.ValueIdx

variable {α : Type}

/-- The row of a table of `N` rows a start index selects: the index as a signed integer, clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) :
    (clampRow N hN v).val = min v.toInt.toNat (N - 1) := rfl

/-- Start indices `[R, K, 1]`, result `[R, K, C]`: element `(b, k, e)` is the table's at the row `idx[b, k, 0]` selects, column `e`. -/
theorem gather_row3 {N C R K w : Nat} (hN : 0 < N)
    (d : GatherDims ⟨2, ![N, C]⟩ ⟨3, ![R, K, 1]⟩ ⟨3, ![R, K, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![R, K, 1]⟩ w) (b : Fin R) (k : Fin K) (e : Fin C) :
    Host.gather d x idx (ix3 b k e) = x (ix2 (clampRow N hN (idx (ix3 b k 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix3 b k 0)).toInt.toNat (N - 1)
    rw [hsl]
    -- the start index is read at the result's two batch coordinates, component 0
    refine congrArg (fun v => min (idx v).toInt.toNat (N - 1)) ?_
    funext q
    refine Fin.ext ?_
    match q with
    | ⟨0, _⟩ => rfl
    | ⟨1, _⟩ => rfl
    | ⟨2, _⟩ => rfl
  | ⟨1, _⟩ =>
    -- the column axis: neither collapsed nor start-indexed, so the coordinate is the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

/-- Start indices `[R, 1]`, result `[R, C]`: element `(b, e)` is the table's at the row `idx[b, 0]` selects, column `e`. -/
theorem gather_row2 {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (b : Fin R) (e : Fin C) :
    Host.gather d x idx (ix2 b e) = x (ix2 (clampRow N hN (idx (ix2 b 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b 0)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl
  | ⟨1, _⟩ =>
    -- the column axis: the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

end Cert.LibGatherRow
-- ==== Proof.LibScatterRows.lean ====
/-
  Scatter-adds along the FIRST axis of the operand, and a gather of single elements of a vector, read at an index.

  ROWS. What `operand.at[idx].add(updates)` (a segment sum) lowers to for an operand `[N, C]`, a vector of `K` row indices
  and updates `[K, C]`: `stablehlo.scatter` with an `add` body and the dimension numbers update_window_dims `[1]`,
  inserted_window_dims `[0]`, scatter_dims_to_operand_dims `[0]`, index_vector_dim `1` over the indices as `[K, 1]`.
  Update element `(k, c)` lands at operand element `(idx[k, 0], c)`, the index read as a SIGNED integer and not
  clamped: an update whose row index is outside `[0, N)` is dropped. So the result at `(n, c)` is the operand there
  plus the sum of the updates `(k, c)` over the `k` whose index is `n` (`scatterAdd_rows_apply`).

  VECTOR. The same for an operand `[N]` and updates `[K]` (no window axis: update_window_dims `[]`): the result at
  `n` is the operand there plus the sum of the updates `k` whose index is `n` (`scatterAdd_vec_apply`).

  GATHER. `table[ids]` over a vector table `[N]` at start indices `[R, 1]`: the one operand axis is collapsed and
  start-indexed, there is no offset axis, and result element `r` is the table's at `idx[r, 0]` read as a signed
  integer and CLAMPED into `[0, N − 1]` (`gather_vec`).

  All three are stated for an ARBITRARY record of dimension numbers whose lists are the ones above (each hypothesis
  holds by `rfl` on a written record), every extent a variable. `rowsDims` / `vecDims` are the two scatter records
  with their conditions as a variable; `start_*` / `window_*` compute the window's start and the window coordinate
  on the operand's axes; `resultIdx?_rows` / `resultIdx?_vec` say where an update lands.
-/
import Idealize.ShloMosaic.Lib.ValueIdx

noncomputable section

open scoped BigOperators

namespace Cert.LibScatterRows

open Idealize.ShloMosaic Idealize.ShloMosaic.ValueIdx

/-! ## The row scatter-add -/

/-- The dimension numbers of a row scatter for an operand `[N, C]`, scatter indices `[K, 1]` and updates `[K, C]`,
    over any evidence `wf` of their conditions. -/
abbrev rowsDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section Rows

variable {N C K w : Nat} (wf : ScatterDims.WF ⟨2, ![N, C]⟩ ⟨2, ![K, 1]⟩ ⟨2, ![K, C]⟩ [1] [0] [0] 1)

/-- On the row axis the window of update `(k, e)` starts at the `k`-th scatter index, read signed. -/
theorem start_row (idx : IVec ⟨2, ![K, 1]⟩ w) (k : Fin K) (e : Fin C) :
    (rowsDims N C K wf).start (ix2 k e) idx 0 = (idx (ix2 k ⟨0, Nat.one_pos⟩)).toInt := by
  unfold ScatterDims.start
  rw [dif_pos (show (0 : Fin 2) ∈ (rowsDims N C K wf).scatterDimsToOperandDims from List.mem_singleton.mpr rfl)]
  congr 2
  funext b; refine Fin.ext ?_
  match b with
  | ⟨0, _⟩ => rfl
  | ⟨1, _⟩ => rfl

/-- The column axis is not a scattered axis: the window starts at column 0. -/
theorem start_col (idx : IVec ⟨2, ![K, 1]⟩ w) (j : (⟨2, ![K, C]⟩ : Shape).Idx) :
    (rowsDims N C K wf).start j idx 1 = 0 := by
  unfold ScatterDims.start
  rw [dif_neg (show ¬ (1 : Fin 2) ∈ ([0] : List (Fin 2)) from by decide)]

/-- The row axis is inserted: its window coordinate is 0. -/
theorem window_row (j : (⟨2, ![K, C]⟩ : Shape).Idx) : (rowsDims N C K wf).window j 0 = 0 := by
  unfold ScatterDims.window
  have h : ¬ (0 : Fin 2) ∈ (rowsDims N C K wf).sKept := by
    show ¬ (0 : Fin 2) ∈ (List.finRange 2).filter (· ∉ ([0] : List (Fin 2)))
    decide
  rw [dif_neg h]

/-- The column axis is the updates' one window axis: the window coordinate of update `(k, e)` is `e`. -/
theorem window_col (k : Fin K) (e : Fin C) : (rowsDims N C K wf).window (ix2 k e) 1 = e.val := by
  unfold ScatterDims.window
  have h : (1 : Fin 2) ∈ (rowsDims N C K wf).sKept := by
    show (1 : Fin 2) ∈ (List.finRange 2).filter (· ∉ ([0] : List (Fin 2)))
    decide
  rw [dif_pos h]
  rfl

/-- WHERE AN UPDATE LANDS: update `(k, e)` lands at `(n, c)` exactly when the `k`-th scatter index, read signed, is
    `n` and `e = c`. -/
theorem resultIdx?_rows (idx : IVec ⟨2, ![K, 1]⟩ w) (k : Fin K) (e : Fin C) (n : Fin N) (c : Fin C) :
    (rowsDims N C K wf).resultIdx? (ix2 k e) idx = some (ix2 n c) ↔
      (idx (ix2 k ⟨0, Nat.one_pos⟩)).toInt = (n.val : Int) ∧ e = c := by
  have he : e.val < C := e.isLt
  have hn : n.val < N := n.isLt
  unfold ScatterDims.resultIdx?
  constructor
  · intro h
    split at h
    · rename_i hh
      have hf := Option.some.inj h
      have h0 := congrArg Fin.val (congrFun hf 0)
      have h1 := congrArg Fin.val (congrFun hf 1)
      have hh0 := (hh 0).1
      simp only [start_row, start_col, window_row, window_col] at h0 h1 hh0
      refine ⟨?_, Fin.ext ?_⟩
      · change ((idx (ix2 k ⟨0, Nat.one_pos⟩)).toInt + ((0 : Nat) : Int)).toNat = n.val at h0
        omega
      · change (0 + (e.val : Int)).toNat = c.val at h1
        omega
    · exact absurd h (by simp)
  · rintro ⟨hi, rfl⟩
    have hall : ∀ a : Fin 2, 0 ≤ (rowsDims N C K wf).start (ix2 k e) idx a + ((rowsDims N C K wf).window (ix2 k e) a : Int) ∧
        (rowsDims N C K wf).start (ix2 k e) idx a + ((rowsDims N C K wf).window (ix2 k e) a : Int)
          < ((⟨2, ![N, C]⟩ : Shape).size a : Int) := by
      intro a
      match a with
      | ⟨0, _⟩ =>
        rw [show (⟨0, by omega⟩ : Fin 2) = 0 from rfl, start_row, window_row, hi]
        change 0 ≤ (n.val : Int) + ((0 : Nat) : Int) ∧ (n.val : Int) + ((0 : Nat) : Int) < (N : Int)
        omega
      | ⟨1, _⟩ =>
        rw [show (⟨1, by omega⟩ : Fin 2) = 1 from rfl, start_col, window_col]
        change 0 ≤ 0 + (e.val : Int) ∧ 0 + (e.val : Int) < (C : Int)
        omega
    rw [dif_pos hall]
    congr 1
    funext a; refine Fin.ext ?_
    match a with
    | ⟨0, _⟩ =>
      show ((rowsDims N C K wf).start (ix2 k e) idx 0 + ((rowsDims N C K wf).window (ix2 k e) 0 : Int)).toNat = n.val
      rw [start_row, window_row, hi]; omega
    | ⟨1, _⟩ =>
      show ((rowsDims N C K wf).start (ix2 k e) idx 1 + ((rowsDims N C K wf).window (ix2 k e) 1 : Int)).toNat = e.val
      rw [start_col, window_col]; omega

/-- The row scatter-add over the written record, read at `(n, c)`. -/
theorem scatterAdd_rowsDims_apply (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd (rowsDims N C K wf) x idx upd (ix2 n c) =
      x (ix2 n c) + ∑ k : Fin K, if (idx (ix2 k ⟨0, Nat.one_pos⟩)).toInt = (n.val : Int) then upd (ix2 k c) else 0 := by
  unfold Ideal.hostScatterAdd
  congr 1
  rw [Finset.sum_filter, sum_idx2]
  refine Finset.sum_congr rfl fun k _ => ?_
  -- of the updates of row `k` only the one in column `c` can land in column `c`
  rw [Finset.sum_eq_single c]
  · by_cases h : (idx (ix2 k ⟨0, Nat.one_pos⟩)).toInt = (n.val : Int)
    · rw [if_pos h, if_pos ((resultIdx?_rows wf idx k c n c).mpr ⟨h, rfl⟩)]
    · rw [if_neg h, if_neg (fun h' => h ((resultIdx?_rows wf idx k c n c).mp h').1)]
  · intro e _ hec
    rw [if_neg (fun h' => hec ((resultIdx?_rows wf idx k e n c).mp h').2)]
  · intro h; exact absurd (Finset.mem_univ c) h

end Rows

/-- THE ROW SCATTER-ADD READ AT `(n, c)`: the operand there plus the updates of column `c` whose scatter index is `n`. -/
theorem scatterAdd_rows_apply {N C K w : Nat}
    (d : ScatterDims ⟨2, ![N, C]⟩ ⟨2, ![K, 1]⟩ ⟨2, ![K, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd d x idx upd (ix2 n c) =
      x (ix2 n c) + ∑ k : Fin K, if (idx (ix2 k ⟨0, Nat.one_pos⟩)).toInt = (n.val : Int) then upd (ix2 k c) else 0 := by
  obtain ⟨uw, iw, sd, iv, wf⟩ := d
  dsimp only at huw hiw hsd hiv
  subst huw hiw hsd hiv
  exact scatterAdd_rowsDims_apply wf x idx upd n c

/-! ## The vector scatter-add -/

/-- The dimension numbers of a scatter into a vector: operand `[N]`, scatter indices `[K, 1]`, updates `[K]`, over any
    evidence `wf` of their conditions. -/
abbrev vecDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N K w : Nat} (wf : ScatterDims.WF ⟨1, ![N]⟩ ⟨2, ![K, 1]⟩ ⟨1, ![K]⟩ [] [0] [0] 1)

/-- The window of update `k` starts at the `k`-th scatter index, read signed. -/
theorem start_vec (idx : IVec ⟨2, ![K, 1]⟩ w) (k : Fin K) :
    (vecDims N K wf).start (ix1 k) idx 0 = (idx (ix2 k ⟨0, Nat.one_pos⟩)).toInt := by
  unfold ScatterDims.start
  rw [dif_pos (show (0 : Fin 1) ∈ (vecDims N K wf).scatterDimsToOperandDims from List.mem_singleton.mpr rfl)]
  congr 2
  funext b; refine Fin.ext ?_
  match b with
  | ⟨0, _⟩ => rfl
  | ⟨1, _⟩ => rfl

/-- The operand's one axis is inserted: its window coordinate is 0. -/
theorem window_vec (j : (⟨1, ![K]⟩ : Shape).Idx) : (vecDims N K wf).window j 0 = 0 := by
  unfold ScatterDims.window
  have h : ¬ (0 : Fin 1) ∈ (vecDims N K wf).sKept := by
    show ¬ (0 : Fin 1) ∈ (List.finRange 1).filter (· ∉ ([0] : List (Fin 1)))
    decide
  rw [dif_neg h]

/-- WHERE AN UPDATE LANDS: update `k` lands at `n` exactly when the `k`-th scatter index, read signed, is `n`. -/
theorem resultIdx?_vec (idx : IVec ⟨2, ![K, 1]⟩ w) (k : Fin K) (n : Fin N) :
    (vecDims N K wf).resultIdx? (ix1 k) idx = some (ix1 n) ↔
      (idx (ix2 k ⟨0, Nat.one_pos⟩)).toInt = (n.val : Int) := by
  have hn : n.val < N := n.isLt
  unfold ScatterDims.resultIdx?
  constructor
  · intro h
    split at h
    · have hf := Option.some.inj h
      have h0 := congrArg Fin.val (congrFun hf 0)
      simp only [start_vec, window_vec] at h0
      change ((idx (ix2 k ⟨0, Nat.one_pos⟩)).toInt + ((0 : Nat) : Int)).toNat = n.val at h0
      rename_i hh
      have hh0 := (hh 0).1
      simp only [start_vec, window_vec] at hh0
      omega
    · exact absurd h (by simp)
  · intro hi
    have hall : ∀ a : Fin 1, 0 ≤ (vecDims N K wf).start (ix1 k) idx a + ((vecDims N K wf).window (ix1 k) a : Int) ∧
        (vecDims N K wf).start (ix1 k) idx a + ((vecDims N K wf).window (ix1 k) a : Int)
          < ((⟨1, ![N]⟩ : Shape).size a : Int) := by
      intro a
      match a with
      | ⟨0, _⟩ =>
        rw [show (⟨0, by omega⟩ : Fin 1) = 0 from rfl, start_vec, window_vec, hi]
        change 0 ≤ (n.val : Int) + ((0 : Nat) : Int) ∧ (n.val : Int) + ((0 : Nat) : Int) < (N : Int)
        omega
    rw [dif_pos hall]
    congr 1
    funext a; refine Fin.ext ?_
    match a with
    | ⟨0, _⟩ =>
      show ((vecDims N K wf).start (ix1 k) idx 0 + ((vecDims N K wf).window (ix1 k) 0 : Int)).toNat = n.val
      rw [start_vec, window_vec, hi]; omega

/-- The vector scatter-add over the written record, read at `n`. -/
theorem scatterAdd_vecDims_apply (x : (⟨1, ![N]⟩ : Shape).Idx → EReal) (idx : IVec ⟨2, ![K, 1]⟩ w)
    (upd : (⟨1, ![K]⟩ : Shape).Idx → EReal) (n : Fin N) :
    Ideal.hostScatterAdd (vecDims N K wf) x idx upd (ix1 n) =
      x (ix1 n) + ∑ k : Fin K, if (idx (ix2 k ⟨0, Nat.one_pos⟩)).toInt = (n.val : Int) then upd (ix1 k) else 0 := by
  unfold Ideal.hostScatterAdd
  congr 1
  rw [Finset.sum_filter, sum_idx1]
  refine Finset.sum_congr rfl fun k _ => ?_
  by_cases h : (idx (ix2 k ⟨0, Nat.one_pos⟩)).toInt = (n.val : Int)
  · rw [if_pos h, if_pos ((resultIdx?_vec wf idx k n).mpr h)]
  · rw [if_neg h, if_neg (fun h' => h ((resultIdx?_vec wf idx k n).mp h'))]

end Vec

/-- THE VECTOR SCATTER-ADD READ AT `n`: the operand there plus the updates whose scatter index is `n`. -/
theorem scatterAdd_vec_apply {N K w : Nat}
    (d : ScatterDims ⟨1, ![N]⟩ ⟨2, ![K, 1]⟩ ⟨1, ![K]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![K, 1]⟩ w)
    (upd : (⟨1, ![K]⟩ : Shape).Idx → EReal) (n : Fin N) :
    Ideal.hostScatterAdd d x idx upd (ix1 n) =
      x (ix1 n) + ∑ k : Fin K, if (idx (ix2 k ⟨0, Nat.one_pos⟩)).toInt = (n.val : Int) then upd (ix1 k) else 0 := by
  obtain ⟨uw, iw, sd, iv, wf⟩ := d
  dsimp only at huw hiw hsd hiv
  subst huw hiw hsd hiv
  exact scatterAdd_vecDims_apply wf x idx upd n

/-! ## The gather of single elements of a vector -/

/-- The element of a table of `N` entries a start index selects: the index as a signed integer, clamped into
    `[0, N − 1]`. -/
def clampVec (N : Nat) (hN : 0 < N) {w : Nat} (v : BitVec w) : Fin N := ⟨min v.toInt.toNat (N - 1), by omega⟩

theorem clampVec_val (N : Nat) (hN : 0 < N) {w : Nat} (v : BitVec w) :
    (clampVec N hN v).val = min v.toInt.toNat (N - 1) := rfl

/-- Start indices `[R, 1]`, result `[R]`: element `b` is the table's at the entry `idx[b, 0]` selects. -/
theorem gather_vec {α : Type} {N R w : Nat} (hN : 0 < N)
    (d : GatherDims ⟨1, ![N]⟩ ⟨2, ![R, 1]⟩ ⟨1, ![R]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![R, 1]⟩ w) (b : Fin R) :
    Host.gather d x idx (ix1 b) = x (ix1 (clampVec N hN (idx (ix2 b ⟨0, Nat.one_pos⟩)))) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the one operand axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b ⟨0, Nat.one_pos⟩)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl

end Cert.LibScatterRows

end
-- ==== Proof.RefVal.lean ====
/-
  The reference's result at an index: for output entry (n, r), zero plus the sum over the edges e whose row is r of
  vals e · support (n, col e), plus the bias at r — where support (n, c) = ∑ k, input (n, k) · weight (k, c).
  (Rows and columns in range: the gather's clamp and the scatter's dropping of out-of-range rows do nothing.)

  The road: the last operation adds the bias to the transposed aggregate; the aggregate is a row scatter-add of the
  messages into a zero matrix, so its entry (r, n) is zero plus the messages (e, n) of the edges whose row word is r;
  a message is the edge's value times the gathered row of the transposed support, the row picked by the edge's
  column word (wrapped if negative, then clamped: neither changes a word in range); and the transposed support at
  (c, n) is the product's entry (n, c), a sum over the 1024 inner positions.
-/
import proofs.«403620_j5248450035900_1_alg».proof.Proof.Gen.ReferenceIdeal.Read
import proofs.«403620_j5248450035900_1_alg».proof.Proof.Spec
import proofs.«403620_j5248450035900_1_alg».proof.Proof.LibDot
import proofs.«403620_j5248450035900_1_alg».proof.Proof.LibGatherRow
import proofs.«403620_j5248450035900_1_alg».proof.Proof.LibScatterRows
import Idealize.ShloMosaic.Lib.ValueIdx
import Idealize.ShloMosaic.PureOps.Ideal.Laws

noncomputable section

namespace Cert.Spmm.Ref

open Cert.ReferenceIdeal Cert.ReferenceIdeal.Gen Idealize.ShloMosaic Idealize.ShloMosaic.ValueIdx Cert.Spmm
open Cert.ReferenceIdeal.Read

/-! ## Where each layout operation reads, in coordinates -/

/-- The final transpose reads output entry (n, r) from the aggregate's entry (r, n). -/
theorem out_reads_agg (n : Fin 2048) (r : Fin 8192) : idx_main_v15 (ix2 n r) = ix2 r n := by
  funext a
  match a with
  | ⟨0, _⟩ => rfl
  | ⟨1, _⟩ => rfl

/-- The transposed support's entry (c, n) is the support's entry (n, c). -/
theorem supportT_reads_support (c : Fin 8192) (n : Fin 2048) : idx_main_v1 (ix2 c n) = ix2 n c := by
  funext a
  match a with
  | ⟨0, _⟩ => rfl
  | ⟨1, _⟩ => rfl

/-- The row words as one column: entry (e, ·) is edge e's word. -/
theorem rowcol_reads_edge (e : Fin 131072) (z : Fin 1) : idx_main_v13 (ix2 e z) = ix1 e := by
  funext a
  match a with
  | ⟨0, _⟩ => rfl

/-- The column words as one column: entry (e, ·) is edge e's word. -/
theorem colcol_reads_edge (e : Fin 131072) (z : Fin 1) : idx_main_v8 (ix2 e z) = ix1 e := by
  funext a
  match a with
  | ⟨0, _⟩ => rfl

/-- The values spread over the 2048 positions of a message: entry (e, n) is edge e's value. -/
theorem valspread_reads_edge (e : Fin 131072) (n : Fin 2048) : idx_main_v2 (idx_main_v10 (ix2 e n)) = ix1 e := by
  funext a
  match a with
  | ⟨0, _⟩ => rfl

/-- The bias spread over the 2048 output rows: entry (n, r) is the bias at r. -/
theorem biasspread_reads_bias (n : Fin 2048) (r : Fin 8192) : idx_main_v16 (idx_main_v17 (ix2 n r)) = ix1 r := by
  funext a
  match a with
  | ⟨0, _⟩ => rfl

/-- In the product's entry (n, c) the k-th term takes the input at (n, k) … -/
theorem term_input (n : Fin 2048) (c : Fin 8192) (k : Fin 1024) : lidx_main_v0 (ix2 n c) k = ix2 n k := by
  funext a
  match a with
  | ⟨0, _⟩ => rfl
  | ⟨1, _⟩ => rfl

/-- … and the weight at (k, c). -/
theorem term_weight (n : Fin 2048) (c : Fin 8192) (k : Fin 1024) : ridx_main_v0 (ix2 n c) k = ix2 k c := by
  funext a
  match a with
  | ⟨0, _⟩ => rfl
  | ⟨1, _⟩ => rfl

/-! ## The support -/

/-- The transposed support at (c, n): row n of the input times column c of the weight. -/
theorem supportT_apply (x0 : FVec Ideal S2048x1024 .f32) (x1 : FVec Ideal S1024x8192 .f32) (c : Fin 8192) (n : Fin 2048) :
    val_main_v1 (F := Ideal) x0 x1 (ix2 c n) = ∑ k : Fin 1024, x0 (ix2 n k) * x1 (ix2 k c) := by
  rw [val_main_v1_apply, supportT_reads_support, val_main_v0_apply]
  refine Finset.sum_congr rfl fun k _ => ?_
  rw [term_input, term_weight]

/-! ## The column word of an edge: wrapped, then clamped -/

/-- A word that is not negative is not below zero, so the wrap-around of negative positions keeps it. -/
theorem wrap_keeps_nonneg (w : BitVec 32) (h0 : 0 ≤ w.toInt) :
    Scalar.select (IntOp.cmpi .slt w 0#32) (IntOp.addi w 8192#32) w = w := by
  have hs : w.slt 0#32 = false := by
    rw [BitVec.slt_eq_decide, BitVec.toInt_zero]
    exact decide_eq_false (not_lt.mpr h0)
  show (if BitVec.ofBool (w.slt 0#32) = 1 then IntOp.addi w 8192#32 else w) = w
  rw [hs, if_neg (by decide)]

/-- The wrapped column word of edge e is the column word itself. -/
theorem colword_apply (x4 : IVec S131072 32) (hcol : ∀ i, 0 ≤ (x4 i).toInt ∧ (x4 i).toInt < 8192)
    (e : Fin 131072) (z : Fin 1) :
    val_main_v8 (F := Ideal) x4 (ix2 e z) = x4 (ix1 e) := by
  rw [val_main_v8_apply, colcol_reads_edge, val_main_v7_apply, val_main_v4_apply, val_main_v6_apply,
    val_main_v3_apply, val_main_c_apply, val_main_v5_apply, val_main_c_0_apply]
  exact wrap_keeps_nonneg _ (hcol _).1

/-- Clamping a word of [0, 8192) into the 8192 rows is reading it as a position. -/
theorem clamp_in_range (w : BitVec 32) (h0 : 0 ≤ w.toInt) (h1 : w.toInt < 8192) :
    Cert.LibGatherRow.clampRow 8192 (by decide) w = wordFin w := by
  refine Fin.ext ?_
  rw [Cert.LibGatherRow.clampRow_val]
  have hv := wordFin_val w h0 h1
  have hlt := (wordFin w).isLt
  omega

/-! ## A message -/

/-- The gathered row of edge e at position n: the support's entry (n, col e). -/
theorem gathered_apply (x0 : FVec Ideal S2048x1024 .f32) (x1 : FVec Ideal S1024x8192 .f32) (x4 : IVec S131072 32)
    (hcol : ∀ i, 0 ≤ (x4 i).toInt ∧ (x4 i).toInt < 8192) (e : Fin 131072) (n : Fin 2048) :
    val_main_v9 (F := Ideal) x0 x1 x4 (ix2 e n)
      = ∑ k : Fin 1024, x0 (ix2 n k) * x1 (ix2 k (wordFin (x4 (ix1 e)))) := by
  unfold val_main_v9
  rw [Cert.LibGatherRow.gather_row2 (by decide : 0 < 8192)
    gather_S8192x2048_S131072x1_S131072x2048_1_0_n_n_0_1_12048 rfl rfl rfl rfl rfl]
  rw [colword_apply x4 hcol, clamp_in_range _ (hcol _).1 (hcol _).2, supportT_apply]

/-- The message of edge e at position n: the edge's value times the support's entry (n, col e). -/
theorem message_apply (x0 : FVec Ideal S2048x1024 .f32) (x1 : FVec Ideal S1024x8192 .f32) (x4 : IVec S131072 32)
    (x5 : FVec Ideal S131072 .f32) (hcol : ∀ i, 0 ≤ (x4 i).toInt ∧ (x4 i).toInt < 8192) (e : Fin 131072) (n : Fin 2048) :
    val_main_v11 (F := Ideal) x0 x1 x4 x5 (ix2 e n)
      = x5 (ix1 e) * ∑ k : Fin 1024, x0 (ix2 n k) * x1 (ix2 k (wordFin (x4 (ix1 e)))) := by
  rw [val_main_v11_apply, Ideal.mulf_def, val_main_v10_apply, val_main_v2_apply, valspread_reads_edge,
    gathered_apply x0 x1 x4 hcol]

/-! ## The aggregate -/

/-- The matrix the messages are added into is zero. -/
theorem zeros_apply (i : S8192x2048.Idx) : val_main_v12 (F := Ideal) i = 0 := by
  rw [val_main_v12_apply, val_main_cst_apply, Ideal.ofBits_def, Ideal.ofBits_zero_f32]

/-- The row word of edge e, read from the one-column array. -/
theorem rowword_apply (x3 : IVec S131072 32) (e : Fin 131072) (z : Fin 1) :
    val_main_v13 (F := Ideal) x3 (ix2 e z) = x3 (ix1 e) := by
  rw [val_main_v13_apply, rowcol_reads_edge]

/-- The aggregate at (r, n): zero plus the messages at n of the edges of row r. -/
theorem aggregate_apply (x0 : FVec Ideal S2048x1024 .f32) (x1 : FVec Ideal S1024x8192 .f32)
    (x3 x4 : IVec S131072 32) (x5 : FVec Ideal S131072 .f32)
    (hrow : ∀ i, 0 ≤ (x3 i).toInt ∧ (x3 i).toInt < 8192) (hcol : ∀ i, 0 ≤ (x4 i).toInt ∧ (x4 i).toInt < 8192)
    (r : Fin 8192) (n : Fin 2048) :
    val_main_v14 (F := Ideal) x0 x1 x3 x4 x5 (ix2 r n)
      = 0 + ∑ e : Fin 131072, if wordFin (x3 (ix1 e)) = r
          then x5 (ix1 e) * ∑ k : Fin 1024, x0 (ix2 n k) * x1 (ix2 k (wordFin (x4 (ix1 e)))) else 0 := by
  unfold val_main_v14
  show Ideal.hostScatterAdd scatter_S8192x2048_S131072x1_S131072x2048_1_0_0_1 _ _ _ (ix2 r n) = _
  rw [Cert.LibScatterRows.scatterAdd_rows_apply _ rfl rfl rfl rfl, zeros_apply]
  refine congrArg (fun t : EReal => 0 + t) (Finset.sum_congr rfl fun e _ => ?_)
  rw [rowword_apply, message_apply x0 x1 x4 x5 hcol]
  exact if_congr (toInt_eq_iff _ (hrow _).1 (hrow _).2 r) rfl rfl

/-! ## The bias and the result -/

/-- The spread bias at (n, r) is the bias at r. -/
theorem bias_apply (x2 : FVec Ideal S8192 .f32) (n : Fin 2048) (r : Fin 8192) :
    val_main_v17 (F := Ideal) x2 (ix2 n r) = x2 (ix1 r) := by
  rw [val_main_v17_apply, val_main_v16_apply, biasspread_reads_bias]

theorem ref_apply (x0 : FVec Ideal S2048x1024 .f32) (x1 : FVec Ideal S1024x8192 .f32) (x2 : FVec Ideal S8192 .f32)
    (x3 x4 : IVec S131072 32) (x5 : FVec Ideal S131072 .f32)
    (hrow : ∀ i, 0 ≤ (x3 i).toInt ∧ (x3 i).toInt < 8192) (hcol : ∀ i, 0 ≤ (x4 i).toInt ∧ (x4 i).toInt < 8192)
    (n : Fin 2048) (r : Fin 8192) :
    Cert.ReferenceIdeal.Read.val_main_v18 (F := Ideal) x0 x1 x2 x3 x4 x5 (ix2 n r)
      = edgeOut (fun c => ∑ k : Fin 1024, x0 (ix2 n k) * x1 (ix2 k c))
          (fun e => wordFin (x4 (ix1 e))) (fun e => wordFin (x3 (ix1 e))) (fun e => x5 (ix1 e)) r (x2 (ix1 r)) := by
  rw [val_main_v18_apply, Ideal.addf_def, val_main_v15_apply, out_reads_agg,
    aggregate_apply x0 x1 x3 x4 x5 hrow hcol, bias_apply]
  rfl

end Cert.Spmm.Ref

end
-- ==== Proof.PreDecode.lean ====
/-
  What the precondition says, entry by entry: every float input is a real number, and every edge's row and column,
  read as signed 32-bit integers, lie in [0, 8192).
-/
import proofs.«403620_j5248450035900_1_alg».proof.Pre_finite_inputs
import proofs.«403620_j5248450035900_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Spmm.Pre

open Idealize.ShloMosaic Cert.Pre_finite_inputs

/-- A scalar has one index. -/
instance : Subsingleton S_.Idx := ⟨fun a b => funext fun d => d.elim0⟩

/-- An extended real whose absolute value, the larger of `x` and `-x`, lies strictly below `+∞` is a real number:
    at `⊥` and at `⊤` that larger one is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 (sign 0, exponent all ones, fraction 0) denotes `+∞`. -/
theorem inf_pattern : Ideal.ofBits .f32 0x7F800000#32 = ⊤ := by simp [Ideal.ofBits, Ideal.ieee]

/-- One entry of a float input passing the test `|x| < +∞`. -/
theorem real_of_test (x : Ideal .f32)
    (h : FloatOps.cmpf (F := Ideal) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  simp only [Ideal.cmp, StableHlo.Predicate.ofBool_eq_one_iff, decide_eq_true_eq, inf_pattern] at h'
  exact real_of_abs_lt_top x h'

/-- One index word passing the two signed tests `0 ≤ w` and `w < 8192`. -/
theorem range_of_test (w : BitVec 32)
    (h : IntOp.andi (IntOp.cmpi .sge w 0#32) (IntOp.cmpi .slt w 8192#32) = 1#1) :
    0 ≤ w.toInt ∧ w.toInt < 8192 := by
  obtain ⟨h1, h2⟩ := IntOp.andi_eq_one.1 h
  rw [IntOp.cmpi_sge] at h1
  rw [IntOp.cmpi_slt] at h2
  have e0 : (0#32 : BitVec 32).toInt = 0 := by decide
  have e1 : (8192#32 : BitVec 32).toInt = 8192 := by decide
  rw [e0] at h1
  rw [e1] at h2
  exact ⟨h1, h2⟩

variable [Cert.Pre_finite_inputs.Facts]

/-- The printed precondition, all ones, decoded. -/
theorem decode (x0 : FVec Ideal S2048x1024 .f32) (x1 : FVec Ideal S1024x8192 .f32) (x2 : FVec Ideal S8192 .f32)
    (x3 x4 : IVec S131072 32) (x5 : FVec Ideal S131072 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x5 i = (r : EReal))
      ∧ (∀ i, 0 ≤ (x3 i).toInt ∧ (x3 i).toInt < 8192) ∧ (∀ i, 0 ≤ (x4 i).toInt ∧ (x4 i).toInt < 8192) := by
  have h0 := congrFun h ValueIdx.ix0
  dsimp only [Cert.Pre_finite_inputs.fn, Cert.Pre_finite_inputs.fn_part1, andi] at h0
  -- the result is the conjunction of six reductions by `and`, nested to the left
  obtain ⟨ha, h4⟩ := IntOp.andi_eq_one.1 h0
  obtain ⟨hb, h3⟩ := IntOp.andi_eq_one.1 ha
  obtain ⟨hc, h5⟩ := IntOp.andi_eq_one.1 hb
  obtain ⟨hd, h2⟩ := IntOp.andi_eq_one.1 hc
  obtain ⟨h0', h1⟩ := IntOp.andi_eq_one.1 hd
  -- each reduction that came out 1 had a 1 at every entry; the entry's test is then read back
  refine ⟨fun i => ?_, fun i => ?_, fun i => ?_, fun i => ?_, fun i => ?_, fun i => ?_⟩
  · have e := Host.reduce_andi_all _ _ _ _ _ h0' i
    exact real_of_test (x0 i) e
  · have e := Host.reduce_andi_all _ _ _ _ _ h1 i
    exact real_of_test (x1 i) e
  · have e := Host.reduce_andi_all _ _ _ _ _ h2 i
    exact real_of_test (x2 i) e
  · have e := Host.reduce_andi_all _ _ _ _ _ h5 i
    exact real_of_test (x5 i) e
  · have e := Host.reduce_andi_all _ _ _ _ _ h3 i
    exact range_of_test (x3 i) e
  · have e := Host.reduce_andi_all _ _ _ _ _ h4 i
    exact range_of_test (x4 i) e

end Cert.Spmm.Pre

end
-- ==== Proof.lean ====
/-
  A graph-convolution layer: out = (adj · (input · weight)ᵀ)ᵀ + bias with adj a sparse 8192 × 8192 matrix given by
  131072 edges (row, column, value). The reference multiplies input by weight, gathers for every edge the column of
  the product its column index names, scales it by the edge's value and adds it into the output column its row index
  names (a segment sum), then adds the bias. The kernel program first scatters the edge values into the DENSE transposed
  adjacency B (entry (c, r) = the sum of the values of the edges with column c and row r), multiplies input by weight
  on the matrix unit, multiplies the product by B on the matrix unit again — accumulating the 8192 terms of each entry in
  four blocks of 2048 in a buffer that lives through the grid — and adds the bias.

  Over the extended reals, for finite inputs and edges whose rows and columns lie in [0, 8192) (where both programs index
  their arrays in range), the two results agree entry by entry: distributing each entry of the product over the edges
  of its column of B and exchanging the two finite sums turns one into the other (`Cert.Spmm.accOut_eq_edgeOut`).
  The changes of float format the kernel program makes are the identity there, and the ideal pass rewrote nothing, so
  the idealization claim is trivial. Each program runs to the end and leaves its six arguments as launched: the
  reference by its generated run; the kernel program, read at words and at extended reals alike, by the run assembled
  from its two regions' body triples (`Hand.frame`).
-/
import proofs.«403620_j5248450035900_1_alg».proof.Defs
import proofs.«403620_j5248450035900_1_alg».proof.Proof.Gen.Kernel
import proofs.«403620_j5248450035900_1_alg».proof.Proof.Gen.KernelIdeal
import proofs.«403620_j5248450035900_1_alg».proof.Proof.Gen.ReferenceIdeal
import proofs.«403620_j5248450035900_1_alg».proof.Proof.Gen.Pre_finite_inputs
import proofs.«403620_j5248450035900_1_alg».proof.Proof.Gen.ReferenceIdeal.Run
import proofs.«403620_j5248450035900_1_alg».proof.Proof.Gen.ReferenceIdeal.Read
import proofs.«403620_j5248450035900_1_alg».proof.Proof.KRun
import proofs.«403620_j5248450035900_1_alg».proof.Proof.KiRun
import proofs.«403620_j5248450035900_1_alg».proof.Proof.KiBridge
import proofs.«403620_j5248450035900_1_alg».proof.Proof.RefVal
import proofs.«403620_j5248450035900_1_alg».proof.Proof.PreDecode
import proofs.«403620_j5248450035900_1_alg».proof.Proof.Spec

set_option maxRecDepth 16384

noncomputable section

namespace Cert.Proof

open Idealize.ShloMosaic Idealize.ShloMosaic.TcCoe Idealize.ShloMosaic.ValueIdx Idealize.SL.Sem Cert.Spmm

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with equal results: entry (n, r) of the kernel program's is the four-block accumulation, of the
    reference's the edge-by-edge sum, of the same real numbers. -/
theorem algebraic : Cert.algebraic_KernelIdeal_ReferenceIdeal := by
  intro m ρ m' ρ' hpre hagree
  refine ⟨fun c => Cert.KernelIdeal.Hand.W4 m c (Proc.devRef .tc Cert.KernelIdeal.main_v21), Cert.KernelIdeal.Hand.result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2.1,
    (hagree c).2.2.2.2.1, (hagree c).2.2.2.2.2]
  obtain ⟨h0, h1, h2, h5, hrow, hcol⟩ := Cert.Spmm.Pre.decode _ _ _ _ _ _ (hpre c)
  funext i
  obtain ⟨n, r, rfl⟩ : ∃ (n : Fin 2048) (r : Fin 8192), i = ix2 n r := ⟨i 0, i 1, eq_ix2 i⟩
  rw [Cert.Spmm.Ref.ref_apply _ _ _ _ _ _ hrow hcol n r]
  refine ((Cert.KernelIdeal.Val.kernel_value m c hrow hcol n r).trans ?_).symm
  exact accOut_eq_edgeOut _ (fun cc => sum_mul_real _ _ (fun k => h0 _) (fun k => h1 _)) _ _ _ (fun e => h5 _) r _

end Cert.Proof

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
